-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S32x8 : Shape := ⟨2, ![32, 8]⟩
abbrev S32x1 : Shape := ⟨2, ![32, 1]⟩
abbrev S16x32 : Shape := ⟨2, ![16, 32]⟩
abbrev S16x1 : Shape := ⟨2, ![16, 1]⟩
abbrev S3x16 : Shape := ⟨2, ![3, 16]⟩
abbrev S3x1 : Shape := ⟨2, ![3, 1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S32x1 : S_.BroadcastsInDim S32x1 (![] : Fin 0 → Fin S32x1.rank)
  reducesTo_S32x1_S_d0_1 : S32x1.ReducesTo [0, 1] S_
  bcast_S_S16x32 : S_.BroadcastsInDim S16x32 (![] : Fin 0 → Fin S16x32.rank)
  reducesTo_S16x32_S_d0_1 : S16x32.ReducesTo [0, 1] S_
  bcast_S_S16x1 : S_.BroadcastsInDim S16x1 (![] : Fin 0 → Fin S16x1.rank)
  reducesTo_S16x1_S_d0_1 : S16x1.ReducesTo [0, 1] S_
  bcast_S_S3x16 : S_.BroadcastsInDim S3x16 (![] : Fin 0 → Fin S3x16.rank)
  reducesTo_S3x16_S_d0_1 : S3x16.ReducesTo [0, 1] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg4 : FVec F S16x1 .f32) (main_arg5 : FVec F S3x16 .f32) (main_arg6 : FVec F S3x1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16x1 .f32 := Host.absf main_arg4
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S3x16 .f32 := Host.absf main_arg5
  let main_cst_8 : FVec F S_ .f32 := constant S_ .f32 0x7F800000#32
  let main_v25 : FVec F S3x16 .f32 := broadcastInDim S3x16 ![] bcast_S_S3x16 main_cst_8
  let main_v26 : IVec S3x16 1 := cmpf .olt main_v24 main_v25
  let main_c_9 : IVec S_ 1 := constantI S_ 1 1#1
  let main_v27 : IVec S_ 1 := (fun x v => Host.reduce IntOp.andi x v reducesTo_S3x16_S_d0_1 h_S_) main_v26 main_c_9
  let main_v28 : IVec S_ 1 := andi main_v23 main_v27
  let main_v29 : FVec F S3x1 .f32 := Host.absf main_arg6
  let main_cst_10 : FVec F S_ .f32 := constant S_ .f32 0x7F800000#32
  let main_v30 : FVec F S3x1 .f32 := broadcastInDim S3x1 ![] bcast_S_S3x1 main_cst_10
  let main_v31 : IVec S3x1 1 := cmpf .olt main_v29 main_v30
  let main_c_11 : IVec S_ 1 := constantI S_ 1 1#1
  let main_v32 : IVec S_ 1 := (fun x v => Host.reduce IntOp.andi x v reducesTo_S3x1_S_d0_1 h_S_) main_v31 main_c_11
  let main_v33 : IVec S_ 1 := andi main_v28 main_v32
  main_v33

def fn {F : FTy → Type} [FloatOps F] (main_arg0 : FVec F S1048576x8 .f32) (main_arg1 : FVec F S32x8 .f32) (main_arg2 : FVec F S32x1 .f32) (main_arg3 : FVec F S16x32 .f32) (main_arg4 : FVec F S16x1 .f32) (main_arg5 : FVec F S3x16 .f32) (main_arg6 : FVec F S3x1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S16x32 .f32 := Host.absf main_arg3
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg4 main_arg5 main_arg6 main_v13 main_v16
-- ==== Kernel.lean ====
abbrev S1048576x8 : Shape := ⟨2, ![1048576, 8]⟩
abbrev S32x8 : Shape := ⟨2, ![32, 8]⟩
abbrev S32x1 : Shape := ⟨2, ![32, 1]⟩
abbrev S16x32 : Shape := ⟨2, ![16, 32]⟩
abbrev S16x1 : Shape := ⟨2, ![16, 1]⟩
abbrev S3x16 : Shape := ⟨2, ![3, 16]⟩
abbrev S3x1 : Shape := ⟨2, ![3, 1]⟩
abbrev S8x1048576 : Shape := ⟨2, ![8, 1048576]⟩
abbrev S_ : Shape := ⟨0, ![]⟩
abbrev S1x3 : Shape := ⟨2, ![1, 3]⟩
abbrev S3x1048576 : Shape := ⟨2, ![3, 1048576]⟩
abbrev S8x131072 : Shape := ⟨2, ![8, 131072]⟩
abbrev S3x131072 : Shape := ⟨2, ![3, 131072]⟩
abbrev S32x131072 : Shape := ⟨2, ![32, 131072]⟩
abbrev S16x131072 : Shape := ⟨2, ![16, 131072]⟩
abbrev S131072 : Shape := ⟨1, ![131072]⟩
abbrev S1x131072 : Shape := ⟨2, ![1, 131072]⟩
abbrev S1048576x3 : Shape := ⟨2, ![1048576, 3]⟩

abbrev nBuf : Space → Nat
  | .hbm => 18
  | .vmem => 11
  | .smem => 0
  | _ => 0

abbrev bufTy : (tb : Table) → Fin (tcTables nBuf tb) → BufTy
  | .hbm, ⟨0, _⟩ => ⟨S1048576x8, .f32⟩
  | .hbm, ⟨1, _⟩ => ⟨S32x8, .f32⟩
  | .hbm, ⟨2, _⟩ => ⟨S32x1, .f32⟩
  | .hbm, ⟨3, _⟩ => ⟨S16x32, .f32⟩
  | .hbm, ⟨4, _⟩ => ⟨S16x1, .f32⟩
  | .hbm, ⟨5, _⟩ => ⟨S3x16, .f32⟩
  | .hbm, ⟨6, _⟩ => ⟨S3x1, .f32⟩
  | .hbm, ⟨7, _⟩ => ⟨S8x1048576, .f32⟩
  | .hbm, ⟨8, _⟩ => ⟨S16x1, .f32⟩
  | .hbm, ⟨9, _⟩ => ⟨S16x1, .f32⟩
  | .hbm, ⟨10, _⟩ => ⟨S3x1, .f32⟩
  | .hbm, ⟨11, _⟩ => ⟨S3x1, .f32⟩
  | .hbm, ⟨12, _⟩ => ⟨S_, .f32⟩
  | .hbm, ⟨13, _⟩ => ⟨S1x3, .f32⟩
  | .hbm, ⟨14, _⟩ => ⟨S32x1, .f32⟩
  | .hbm, ⟨15, _⟩ => ⟨S16x1, .f32⟩
  | .hbm, ⟨16, _⟩ => ⟨S3x1048576, .f32⟩
  | .hbm, ⟨17, _⟩ => ⟨S1048576x3, .f32⟩
  | .local _ .vmem, ⟨0, _⟩ => ⟨S8x131072, .f32⟩
  | .local _ .vmem, ⟨1, _⟩ => ⟨S8x131072, .f32⟩
  | .local _ .vmem, ⟨2, _⟩ => ⟨S32x8, .f32⟩
  | .local _ .vmem, ⟨3, _⟩ => ⟨S32x1, .f32⟩
  | .local _ .vmem, ⟨4, _⟩ => ⟨S16x32, .f32⟩
  | .local _ .vmem, ⟨5, _⟩ => ⟨S16x1, .f32⟩
  | .local _ .vmem, ⟨6, _⟩ => ⟨S3x16, .f32⟩
  | .local _ .vmem, ⟨7, _⟩ => ⟨S3x1, .f32⟩
  | .local _ .vmem, ⟨8, _⟩ => ⟨S1x3, .f32⟩
  | .local _ .vmem, ⟨9, _⟩ => ⟨S3x131072, .f32⟩
  | .local _ .vmem, ⟨10, _⟩ => ⟨S3x131072, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x131072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S1048576x8_S8x1048576_1_0 : S1048576x8.Transposes [1, 0] S8x1048576
  bcast_S_S1x3 : S_.BroadcastsInDim S1x3 (![] : Fin 0 → Fin S1x3.rank)
  inb_S32x8_S32x8_0_0 : ∀ a, (![0, 0] : Fin 2 → Nat) a + S32x8.size a ≤ S32x8.size a
  h_S32x8 : 0 < S32x8.numel
  inb_S8x131072_S8x131072_0_0 : ∀ a, (![0, 0] : Fin 2 → Nat) a + S8x131072.size a ≤ S8x131072.size a
  h_S8x131072 : 0 < S8x131072.numel
  shapeCasts_S8x131072_S8x131072 : S8x131072.ShapeCasts S8x131072
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x131072 : S32x1.Broadcasts S32x131072
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x131072 : S16x1.Broadcasts S16x131072
  inb_S3x16_S3x16_0_0 : ∀ a, (![0, 0] : Fin 2 → Nat) a + S3x16.size a ≤ S3x16.size a
  h_S3x16 : 0 < S3x16.numel
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x131072 : S3x1.Broadcasts S3x131072
  reduces_S3x131072_S131072 : S3x131072.Reduces [0] S131072
  shapeCasts_S131072_S1x131072 : S131072.ShapeCasts S1x131072
  broadcasts_S1x131072_S3x131072 : S1x131072.Broadcasts S3x131072
  inb_S1x3_S1x3_0_0 : ∀ a, (![0, 0] : Fin 2 → Nat) a + S1x3.size a ≤ S1x3.size a
  h_S1x3 : 0 < S1x3.numel
  shapeCasts_S1x3_S1x3 : S1x3.ShapeCasts S1x3
  inb_S3x131072_S3x131072_0_0 : ∀ a, (![0, 0] : Fin 2 → Nat) a + S3x131072.size a ≤ S3x131072.size a
  h_S3x131072 : 0 < S3x131072.numel
  transposes_S3x1048576_S1048576x3_1_0 : S3x1048576.Transposes [1, 0] S1048576x3
  dot_S16x32_S32x1_S16x1_1_0_0_1_n_n_wf : DotDims.WF S16x32 S32x1 S16x1 [1] [0] [0] [1] [] []
  dot_S3x16_S16x1_S3x1_1_0_0_1_n_n_wf : DotDims.WF S3x16 S16x1 S3x1 [1] [0] [0] [1] [] []
  dot_S32x8_S8x131072_S32x131072_1_0_0_1_n_n_wf : DotDims.WF S32x8 S8x131072 S32x131072 [1] [0] [0] [1] [] []
  dot_S16x32_S32x131072_S16x131072_1_0_0_1_n_n_wf : DotDims.WF S16x32 S32x131072 S16x131072 [1] [0] [0] [1] [] []
  dot_S3x16_S16x131072_S3x131072_1_0_0_1_n_n_wf : DotDims.WF S3x16 S16x131072 S3x131072 [1] [0] [0] [1] [] []
  dot_S1x3_S3x131072_S1x131072_1_0_0_1_n_n_wf : DotDims.WF S1x3 S3x131072 S1x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x131072.size a ≤ S8x1048576.size a
  hwx0_0 : ∀ i : grid0.Coords, EltTy.bits .f32 = 32 ∨ (Rect.block (s := S8x1048576) S8x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x8.size a ≤ S32x8.size a
  hwx0_1 : ∀ i : grid0.Coords, EltTy.bits .f32 = 32 ∨ (Rect.block (s := S32x8) S32x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x16.size a ≤ S3x16.size a
  hwx0_5 : ∀ i : grid0.Coords, EltTy.bits .f32 = 32 ∨ (Rect.block (s := S3x16) S3x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3.size a ≤ S1x3.size a
  hwx0_7 : ∀ i : grid0.Coords, EltTy.bits .f32 = 32 ∨ (Rect.block (s := S1x3) S1x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3x131072.size a ≤ S3x1048576.size a
  hwx0_8 : ∀ i : grid0.Coords, EltTy.bits .f32 = 32 ∨ (Rect.block (s := S3x1048576) S3x131072.size (cc0_transform_8 i) (hinb0_8 i)).WholeWords (EltTy.packing .f32)

variable [Facts₀]

def dot_S16x32_S32x1_S16x1_1_0_0_1_n_n : DotDims S16x32 S32x1 S16x1 where
  lhsContracting := [1]
  rhsContracting := [0]
  lhsNonContracting := [0]
  rhsNonContracting := [1]
  lhsBatch := []
  rhsBatch := []
  wf := dot_S16x32_S32x1_S16x1_1_0_0_1_n_n_wf
def dot_S3x16_S16x1_S3x1_1_0_0_1_n_n : DotDims S3x16 S16x1 S3x1 where
  lhsContracting := [1]
  rhsContracting := [0]
  lhsNonContracting := [0]
  rhsNonContracting := [1]
  lhsBatch := []
  rhsBatch := []
  wf := dot_S3x16_S16x1_S3x1_1_0_0_1_n_n_wf
def dot_S32x8_S8x131072_S32x131072_1_0_0_1_n_n : DotDims S32x8 S8x131072 S32x131072 where
  lhsContracting := [1]
  rhsContracting := [0]
  lhsNonContracting := [0]
  rhsNonContracting := [1]
  lhsBatch := []
  rhsBatch := []
  wf := dot_S32x8_S8x131072_S32x131072_1_0_0_1_n_n_wf
def dot_S16x32_S32x131072_S16x131072_1_0_0_1_n_n : DotDims S16x32 S32x131072 S16x131072 where
  lhsContracting := [1]
  rhsContracting := [0]
  lhsNonContracting := [0]
  rhsNonContracting := [1]
  lhsBatch := []
  rhsBatch := []
  wf := dot_S16x32_S32x131072_S16x131072_1_0_0_1_n_n_wf
def dot_S3x16_S16x131072_S3x131072_1_0_0_1_n_n : DotDims S3x16 S16x131072 S3x131072 where
  lhsContracting := [1]
  rhsContracting := [0]
  lhsNonContracting := [0]
  rhsNonContracting := [1]
  lhsBatch := []
  rhsBatch := []
  wf := dot_S3x16_S16x131072_S3x131072_1_0_0_1_n_n_wf
def dot_S1x3_S3x131072_S1x131072_1_0_0_1_n_n : DotDims S1x3 S3x131072 S1x131072 where
  lhsContracting := [1]
  rhsContracting := [0]
  lhsNonContracting := [0]
  rhsNonContracting := [1]
  lhsBatch := []
  rhsBatch := []
  wf := dot_S1x3_S3x131072_S1x131072_1_0_0_1_n_n_wf

abbrev win0_0 : Pipeline.Window sig grid0 :=
  Pipeline.Window.ofSpec (Memref.whole main_v0) S8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S3x131072.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S32x8 : Shape := ⟨2, ![32, 8]⟩
abbrev S32x1 : Shape := ⟨2, ![32, 1]⟩
abbrev S16x32 : Shape := ⟨2, ![16, 32]⟩
abbrev S16x1 : Shape := ⟨2, ![16, 1]⟩
abbrev S3x16 : Shape := ⟨2, ![3, 16]⟩
abbrev S3x1 : Shape := ⟨2, ![3, 1]⟩
abbrev S3x1048576 : Shape := ⟨2, ![3, 1048576]⟩
abbrev S8192x8 : Shape := ⟨2, ![8192, 8]⟩
abbrev S3x8192 : Shape := ⟨2, ![3, 8192]⟩
abbrev S32x8192 : Shape := ⟨2, ![32, 8192]⟩
abbrev S16x8192 : Shape := ⟨2, ![16, 8192]⟩
abbrev S8192 : Shape := ⟨1, ![8192]⟩
abbrev S1x8192 : Shape := ⟨2, ![1, 8192]⟩
abbrev S1048576x3 : Shape := ⟨2, ![1048576, 3]⟩

abbrev nBuf : Space → Nat
  | .hbm => 9
  | .vmem => 10
  | .smem => 0
  | _ => 0

abbrev bufTy : (tb : Table) → Fin (tcTables nBuf tb) → BufTy
  | .hbm, ⟨0, _⟩ => ⟨S1048576x8, .f32⟩
  | .hbm, ⟨1, _⟩ => ⟨S32x8, .f32⟩
  | .hbm, ⟨2, _⟩ => ⟨S32x1, .f32⟩
  | .hbm, ⟨3, _⟩ => ⟨S16x32, .f32⟩
  | .hbm, ⟨4, _⟩ => ⟨S16x1, .f32⟩
  | .hbm, ⟨5, _⟩ => ⟨S3x16, .f32⟩
  | .hbm, ⟨6, _⟩ => ⟨S3x1, .f32⟩
  | .hbm, ⟨7, _⟩ => ⟨S3x1048576, .f32⟩
  | .hbm, ⟨8, _⟩ => ⟨S1048576x3, .f32⟩
  | .local _ .vmem, ⟨0, _⟩ => ⟨S8192x8, .f32⟩
  | .local _ .vmem, ⟨1, _⟩ => ⟨S8192x8, .f32⟩
  | .local _ .vmem, ⟨2, _⟩ => ⟨S32x8, .f32⟩
  | .local _ .vmem, ⟨3, _⟩ => ⟨S32x1, .f32⟩
  | .local _ .vmem, ⟨4, _⟩ => ⟨S16x32, .f32⟩
  | .local _ .vmem, ⟨5, _⟩ => ⟨S16x1, .f32⟩
  | .local _ .vmem, ⟨6, _⟩ => ⟨S3x16, .f32⟩
  | .local _ .vmem, ⟨7, _⟩ => ⟨S3x1, .f32⟩
  | .local _ .vmem, ⟨8, _⟩ => ⟨S3x8192, .f32⟩
  | .local _ .vmem, ⟨9, _⟩ => ⟨S3x8192, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x8_S8192x8_0_0 : ∀ a, (![0, 0] : Fin 2 → Nat) a + S8192x8.size a ≤ S8192x8.size a
  h_S8192x8 : 0 < S8192x8.numel
  inb_S32x8_S32x8_0_0 : ∀ a, (![0, 0] : Fin 2 → Nat) a + S32x8.size a ≤ S32x8.size a
  h_S32x8 : 0 < S32x8.numel
  inb_S32x1_S32x1_0_0 : ∀ a, (![0, 0] : Fin 2 → Nat) a + S32x1.size a ≤ S32x1.size a
  h_S32x1 : 0 < S32x1.numel
  broadcasts_S32x1_S32x8192 : S32x1.Broadcasts S32x8192
  inb_S16x32_S16x32_0_0 : ∀ a, (![0, 0] : Fin 2 → Nat) a + S16x32.size a ≤ S16x32.size a
  h_S16x32 : 0 < S16x32.numel
  inb_S16x1_S16x1_0_0 : ∀ a, (![0, 0] : Fin 2 → Nat) a + S16x1.size a ≤ S16x1.size a
  h_S16x1 : 0 < S16x1.numel
  broadcasts_S16x1_S16x8192 : S16x1.Broadcasts S16x8192
  inb_S3x16_S3x16_0_0 : ∀ a, (![0, 0] : Fin 2 → Nat) a + S3x16.size a ≤ S3x16.size a
  h_S3x16 : 0 < S3x16.numel
  inb_S3x1_S3x1_0_0 : ∀ a, (![0, 0] : Fin 2 → Nat) a + S3x1.size a ≤ S3x1.size a
  h_S3x1 : 0 < S3x1.numel
  broadcasts_S3x1_S3x8192 : S3x1.Broadcasts S3x8192
  reduces_S3x8192_S8192 : S3x8192.Reduces [0] S8192
  shapeCasts_S8192_S1x8192 : S8192.ShapeCasts S1x8192
  broadcasts_S1x8192_S3x8192 : S1x8192.Broadcasts S3x8192
  inb_S3x8192_S3x8192_0_0 : ∀ a, (![0, 0] : Fin 2 → Nat) a + S3x8192.size a ≤ S3x8192.size a
  h_S3x8192 : 0 < S3x8192.numel
  transposes_S3x1048576_S1048576x3_1_0 : S3x1048576.Transposes [1, 0] S1048576x3
  dot_S32x8_S8192x8_S32x8192_1_1_0_0_n_n_wf : DotDims.WF S32x8 S8192x8 S32x8192 [1] [1] [0] [0] [] []
  dot_S16x32_S32x8192_S16x8192_1_0_0_1_n_n_wf : DotDims.WF S16x32 S32x8192 S16x8192 [1] [0] [0] [1] [] []
  dot_S3x16_S16x8192_S3x8192_1_0_0_1_n_n_wf : DotDims.WF S3x16 S16x8192 S3x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S1048576x8.size a
  hwx0_0 : ∀ i : grid0.Coords, EltTy.bits .f32 = 32 ∨ (Rect.block (s := S1048576x8) S8192x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x8.size a ≤ S32x8.size a
  hwx0_1 : ∀ i : grid0.Coords, EltTy.bits .f32 = 32 ∨ (Rect.block (s := S32x8) S32x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x16.size a ≤ S3x16.size a
  hwx0_5 : ∀ i : grid0.Coords, EltTy.bits .f32 = 32 ∨ (Rect.block (s := S3x16) S3x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x8192.size a ≤ S3x1048576.size a
  hwx0_7 : ∀ i : grid0.Coords, EltTy.bits .f32 = 32 ∨ (Rect.block (s := S3x1048576) S3x8192.size (cc0_transform_7 i) (hinb0_7 i)).WholeWords (EltTy.packing .f32)

variable [Facts₀]

def dot_S32x8_S8192x8_S32x8192_1_1_0_0_n_n : DotDims S32x8 S8192x8 S32x8192 where
  lhsContracting := [1]
  rhsContracting := [1]
  lhsNonContracting := [0]
  rhsNonContracting := [0]
  lhsBatch := []
  rhsBatch := []
  wf := dot_S32x8_S8192x8_S32x8192_1_1_0_0_n_n_wf
def dot_S16x32_S32x8192_S16x8192_1_0_0_1_n_n : DotDims S16x32 S32x8192 S16x8192 where
  lhsContracting := [1]
  rhsContracting := [0]
  lhsNonContracting := [0]
  rhsNonContracting := [1]
  lhsBatch := []
  rhsBatch := []
  wf := dot_S16x32_S32x8192_S16x8192_1_0_0_1_n_n_wf
def dot_S3x16_S16x8192_S3x8192_1_0_0_1_n_n : DotDims S3x16 S16x8192 S3x8192 where
  lhsContracting := [1]
  rhsContracting := [0]
  lhsNonContracting := [0]
  rhsNonContracting := [1]
  lhsBatch := []
  rhsBatch := []
  wf := dot_S3x16_S16x8192_S3x8192_1_0_0_1_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S3x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Spec.lean ====
/-
  The mathematics both programs compute, for ONE sample (one row of the batch), on the extended reals.

  A sample is a column `col : Fin 8 → EReal`.  The classifier is three affine layers with a relu after the first two,
  followed by a log-softmax over the three classes.  The reference adds each bias before the relu,
  `h = max (W u + b) 0`; the kernel keeps the bias out of the wide stage, `u' = max (W u) (-b)`, and moves the
  deferred `+ b` into the next layer's bias (`W' (u' + b) + b' = W' u' + (W' b + b')`).  The reference sums the three
  exponentials directly; the kernel multiplies them by a row of ones.
-/
import Idealize.ShloMosaic.PureOps.Ideal
import Idealize.ShloMosaic.Lib.ValueIdx

noncomputable section

namespace Cert.Mlp

open Idealize.ShloMosaic Idealize.ShloMosaic.ValueIdx

/-- A matrix of extended reals with `a` rows and `b` columns, indexed as the printed programs index a rank-2 array. -/
abbrev Mat (a b : Nat) : Type := (⟨2, ![a, b]⟩ : Shape).Idx → EReal

/-- Every entry of `f` is a real number (neither infinity): what the precondition gives of each input array. -/
def AllReal {α : Type} (f : α → EReal) : Prop := ∀ i, ∃ r : ℝ, f i = (r : EReal)

/-- A matrix applied to a vector: row `r` of `w` against `u`. -/
def lin {a b : Nat} (w : Mat a b) (u : Fin b → EReal) : Fin a → EReal :=
  fun r => ∑ k : Fin b, w (ix2 r k) * u k

/-- The kernel's logits of one sample: each hidden stage is `max (W u) nb` with `nb` the NEGATED (folded) bias, and the
    last layer adds the folded bias `b3f`. -/
def logitsK (w1 : Mat 32 8) (nb1 : Fin 32 → EReal) (w2 : Mat 16 32) (nb2 : Fin 16 → EReal) (w3 : Mat 3 16)
    (b3f : Fin 3 → EReal) (col : Fin 8 → EReal) : Fin 3 → EReal :=
  fun c => lin w3 (fun j => max (lin w2 (fun k => max (lin w1 col k) (nb1 k)) j) (nb2 j)) c + b3f c

/-- The reference's logits of one sample: `max (W u + b) 0` twice, then the last affine layer. -/
def logitsR (w1 : Mat 32 8) (b1 : Fin 32 → EReal) (w2 : Mat 16 32) (b2 : Fin 16 → EReal) (w3 : Mat 3 16)
    (b3 : Fin 3 → EReal) (col : Fin 8 → EReal) : Fin 3 → EReal :=
  fun c => lin w3 (fun j => max (lin w2 (fun k => max (lin w1 col k + b1 k) 0) j + b2 j) 0) c + b3 c

/-- The largest of the three logits, folded from the pattern of `-∞` as both programs' reductions are. -/
def colMax (lg : Fin 3 → EReal) : EReal :=
  (Finset.univ : Finset (Fin 3)).fold max (Ideal.ofBits .f32 0xFF800000#32) lg

/-- The kernel's log-softmax: the exponentials are summed against a row `ones`. -/
def lsmK (ones : Fin 3 → EReal) (lg : Fin 3 → EReal) : Fin 3 → EReal :=
  fun c => (lg c - colMax lg) - Ideal.log (∑ k : Fin 3, ones k * Ideal.exp (lg k - colMax lg))

/-- The reference's log-softmax. -/
def lsmR (lg : Fin 3 → EReal) : Fin 3 → EReal :=
  fun c => (lg c - colMax lg) - Ideal.log (∑ k : Fin 3, Ideal.exp (lg k - colMax lg))

/-- The second layer's folded bias `W2 b1 + b2`. -/
def bias2 (w2 : Mat 16 32) (b1 : Mat 32 1) (b2 : Mat 16 1) : Fin 16 → EReal :=
  fun j => lin w2 (fun k => b1 (ix2 k 0)) j + b2 (ix2 j 0)

/-- The third layer's folded bias `W3 (W2 b1 + b2) + b3`. -/
def bias3 (w2 : Mat 16 32) (b1 : Mat 32 1) (b2 : Mat 16 1) (w3 : Mat 3 16) (b3 : Mat 3 1) : Fin 3 → EReal :=
  fun c => lin w3 (bias2 w2 b1 b2) c + b3 (ix2 c 0)

/-- What the kernel's program returns: entry `(n, c)` is class `c` of the kernel's log-softmax of sample `n`'s logits, the
    biases folded by the host beforehand and the row of ones the pattern of `1.0`. -/
def resultK (x : Mat 1048576 8) (w1 : Mat 32 8) (b1 : Mat 32 1) (w2 : Mat 16 32) (b2 : Mat 16 1) (w3 : Mat 3 16)
    (b3 : Mat 3 1) : Mat 1048576 3 :=
  fun j => lsmK (fun _ => Ideal.ofBits .f32 0x3F800000#32)
    (logitsK w1 (fun k => -(b1 (ix2 k 0))) w2 (fun q => -(bias2 w2 b1 b2 q)) w3 (bias3 w2 b1 b2 w3 b3)
      (fun i => x (ix2 (j 0) i))) (j 1)

/-- What the reference's program returns. -/
def resultR (x : Mat 1048576 8) (w1 : Mat 32 8) (b1 : Mat 32 1) (w2 : Mat 16 32) (b2 : Mat 16 1) (w3 : Mat 3 16)
    (b3 : Mat 3 1) : Mat 1048576 3 :=
  fun j => lsmR (logitsR w1 (fun k => b1 (ix2 k 0)) w2 (fun q => b2 (ix2 q 0)) w3 (fun c => b3 (ix2 c 0))
      (fun i => x (ix2 (j 0) i))) (j 1)

end Cert.Mlp

end
-- ==== Proof.Algebra.lean ====
/-
  The two programs compute one function of finite inputs.

  Two facts.  First, the kernel's row of ones is the real number 1 in every place, so multiplying the exponentials by
  it changes nothing.  Second, on real numbers the kernel's deferred biases are the reference's biases: for reals
  `max (z + b) 0 = max z (-b) + b` (adding `b` to both arguments of a maximum adds it to the maximum), and a row of a
  matrix against a sum of two vectors is the sum of the two rows' products.  Both laws fail at the infinities of the
  extended reals, so the second fact is proved on ℝ and carried back along the coercion ℝ → EReal, which preserves
  sums, products, negation and maxima.
-/
import proofs.«149577_g2000401451430501_pallasbulk_762_21_alg».proof.Proof.Spec
import Idealize.ShloMosaic.PureOps.IdealRules
import Mathlib.Data.EReal.Basic
import Mathlib.Data.EReal.Operations

noncomputable section

namespace Cert.Mlp

open Idealize.ShloMosaic Idealize.ShloMosaic.ValueIdx

/-- Against a row of ones the kernel's weighted sum of the exponentials is the reference's plain sum. -/
theorem lsmK_ones (lg : Fin 3 → EReal) : lsmK (fun _ => Ideal.ofBits .f32 0x3F800000#32) lg = lsmR lg := by
  -- the pattern of 1.0 denotes the real number 1
  have h1 : Ideal.ofBits .f32 0x3F800000#32 = 1 := IdealRules.sign_bit.ideal_onePat .f32
  funext c
  unfold lsmK lsmR
  simp only [h1, one_mul]

namespace Fold

/-! ### The same layers on the real numbers -/

/-- A real matrix, indexed like `Mat`. -/
abbrev RMat (a b : Nat) : Type := (⟨2, ![a, b]⟩ : Shape).Idx → ℝ

/-- A real matrix applied to a real vector. -/
def linR {a b : Nat} (w : RMat a b) (u : Fin b → ℝ) : Fin a → ℝ :=
  fun r => ∑ k : Fin b, w (ix2 r k) * u k

/-- A matrix row distributes over a sum of two vectors. -/
theorem linR_add {a b : Nat} (w : RMat a b) (u v : Fin b → ℝ) (r : Fin a) :
    linR w (fun k => u k + v k) r = linR w u r + linR w v r := by
  unfold linR
  simp only [mul_add, Finset.sum_add_distrib]

/-- A relu after a bias is a maximum against the negated bias, with the bias added afterwards. -/
theorem max_fold (z b : ℝ) : max (z + b) 0 = max z (-b) + b := by
  rw [← max_add_add_right, neg_add_cancel]

/-- The folded-bias network and the plain network agree on real numbers. -/
theorem real_logits (w1 : RMat 32 8) (b1 : Fin 32 → ℝ) (w2 : RMat 16 32) (b2 : Fin 16 → ℝ) (w3 : RMat 3 16)
    (b3 : Fin 3 → ℝ) (col : Fin 8 → ℝ) (c : Fin 3) :
    linR w3 (fun j => max (linR w2 (fun k => max (linR w1 col k) (-(b1 k))) j) (-(linR w2 (fun k => b1 k) j + b2 j))) c
        + (linR w3 (fun j => linR w2 (fun k => b1 k) j + b2 j) c + b3 c)
      = linR w3 (fun j => max (linR w2 (fun k => max (linR w1 col k + b1 k) 0) j + b2 j) 0) c + b3 c := by
  -- second layer: the first layer's deferred bias passes through the matrix into the second bias
  have e1 : ∀ j, linR w2 (fun k => max (linR w1 col k + b1 k) 0) j + b2 j
      = linR w2 (fun k => max (linR w1 col k) (-(b1 k))) j + (linR w2 (fun k => b1 k) j + b2 j) := by
    intro j
    simp only [max_fold, linR_add, add_assoc]
  -- third layer: the same once more
  simp only [e1, max_fold, linR_add, add_assoc]

/-! ### The coercion ℝ → EReal preserves the layers -/

/-- A finite sum of coerced reals is the coercion of the real sum. -/
theorem coe_sum {ι : Type} (s : Finset ι) (f : ι → ℝ) :
    (∑ i ∈ s, (f i : EReal)) = ((∑ i ∈ s, f i : ℝ) : EReal) := by
  classical
  induction s using Finset.induction_on with
  | empty => simp only [Finset.sum_empty, EReal.coe_zero]
  | insert a s ha ih => rw [Finset.sum_insert ha, Finset.sum_insert ha, ih, EReal.coe_add]

/-- The coercion is monotone, so it preserves maxima. -/
theorem coe_max (x y : ℝ) : max (x : EReal) (y : EReal) = ((max x y : ℝ) : EReal) :=
  (EReal.coe_strictMono.monotone.map_max).symm

theorem coe_max_zero (x : ℝ) : max (x : EReal) 0 = ((max x 0 : ℝ) : EReal) := by
  rw [← EReal.coe_zero, coe_max]

/-- A matrix with real entries applied to a vector of reals is the coercion of the real product. -/
theorem lin_coe {a b : Nat} (w : Mat a b) (wr : RMat a b) (hw : ∀ i, w i = (wr i : EReal)) (u : Fin b → ℝ) :
    lin w (fun k => (u k : EReal)) = fun r => ((linR wr u r : ℝ) : EReal) := by
  funext r
  unfold lin linR
  simp only [hw, ← EReal.coe_mul]
  exact coe_sum _ _

end Fold

open Fold in
/-- With every weight, bias and sample entry a real number, the kernel's folded-bias logits are the reference's. -/
theorem logits_fold (w1 : Mat 32 8) (b1 : Mat 32 1) (w2 : Mat 16 32) (b2 : Mat 16 1) (w3 : Mat 3 16) (b3 : Mat 3 1)
    (hw1 : AllReal w1) (hb1 : AllReal b1) (hw2 : AllReal w2) (hb2 : AllReal b2) (hw3 : AllReal w3) (hb3 : AllReal b3)
    (col : Fin 8 → EReal) (hcol : AllReal col) :
    logitsK w1 (fun k => -(b1 (ix2 k 0))) w2 (fun q => -(bias2 w2 b1 b2 q)) w3 (bias3 w2 b1 b2 w3 b3) col
      = logitsR w1 (fun k => b1 (ix2 k 0)) w2 (fun q => b2 (ix2 q 0)) w3 (fun c => b3 (ix2 c 0)) col := by
  unfold AllReal at hw1 hb1 hw2 hb2 hw3 hb3 hcol
  -- name the real number behind every entry
  choose w1r hw1r using hw1
  choose b1r hb1r using hb1
  choose w2r hw2r using hw2
  choose b2r hb2r using hb2
  choose w3r hw3r using hw3
  choose b3r hb3r using hb3
  choose colr hcolr using hcol
  obtain rfl : col = fun i => (colr i : EReal) := funext hcolr
  have L1 := lin_coe w1 w1r hw1r
  have L2 := lin_coe w2 w2r hw2r
  have L3 := lin_coe w3 w3r hw3r
  funext c
  unfold logitsK logitsR bias3 bias2
  -- both sides are coercions of the real networks
  simp only [hb1r, hb2r, hb3r, L1, L2, L3, ← EReal.coe_neg, ← EReal.coe_add, coe_max, coe_max_zero]
  exact congrArg _ (real_logits w1r (fun k => b1r (ix2 k 0)) w2r (fun j => b2r (ix2 j 0)) w3r
    (fun c => b3r (ix2 c 0)) colr c)

/-- So the two programs' results are one array. -/
theorem result_eq (x : Mat 1048576 8) (w1 : Mat 32 8) (b1 : Mat 32 1) (w2 : Mat 16 32) (b2 : Mat 16 1) (w3 : Mat 3 16) (b3 : Mat 3 1)
    (hx : AllReal x) (hw1 : AllReal w1) (hb1 : AllReal b1) (hw2 : AllReal w2) (hb2 : AllReal b2) (hw3 : AllReal w3) (hb3 : AllReal b3) :
    resultK x w1 b1 w2 b2 w3 b3 = resultR x w1 b1 w2 b2 w3 b3 := by
  funext j
  unfold resultK resultR
  rw [lsmK_ones, logits_fold w1 b1 w2 b2 w3 b3 hw1 hb1 hw2 hb2 hw3 hb3 _ (fun i => hx _)]

end Cert.Mlp

end
-- ==== Proof.Finite.lean ====
/-
  The precondition, read: every entry of every input array is a real number.
-/
import proofs.«149577_g2000401451430501_pallasbulk_762_21_alg».proof.Proof.Spec
import proofs.«149577_g2000401451430501_pallasbulk_762_21_alg».proof.Pre_finite_inputs
import proofs.«149577_g2000401451430501_pallasbulk_762_21_alg».proof.Proof.Gen.Pre_finite_inputs
import Idealize.ShloMosaic.Lib.ReduceAll

noncomputable section

namespace Cert.Mlp

open Idealize.ShloMosaic Idealize.ShloMosaic.ValueIdx

/-- The single-precision pattern `0x7F800000` is `+∞` on the extended reals. -/
private theorem ofBits_posInf : Ideal.ofBits .f32 0x7F800000#32 = (⊤ : EReal) := by
  simp [Ideal.ofBits, Ideal.ieee]

/-- An extended real whose absolute value `max x (-x)` lies strictly below `+∞` is a real number: at `+∞` the
    maximum is `x` itself, at `-∞` it is `-x = +∞`. -/
private theorem exists_real_of_abs_lt_top (x : EReal) (h : max x (-x) < ⊤) : ∃ r : ℝ, x = (r : EReal) := by
  induction x using EReal.rec with
  | bot => simp at h
  | coe r => exact ⟨r, rfl⟩
  | top => simp at h

/-- The same, from the comparison's bit: the ordered `<` of `|x|` against the pattern of `+∞` came out 1. -/
private theorem exists_real_of_cmp (x : EReal)
    (h : Ideal.cmp .olt (max x (-x)) (Ideal.ofBits .f32 0x7F800000#32) = 1#1) : ∃ r : ℝ, x = (r : EReal) := by
  rw [ofBits_posInf] at h
  unfold Ideal.cmp at h
  by_cases hlt : max x (-x) < ⊤
  · exact exists_real_of_abs_lt_top x hlt
  · simp [hlt] at h

/-- The rank-0 shape has one index. -/
local instance : Subsingleton Cert.Pre_finite_inputs.S_.Idx := ⟨fun a b => funext fun d => d.elim0⟩

/-- One array's part of the precondition, over any shape: the conjunction over all entries of
    `|a i| < +∞` (the `+∞` broadcast from a constant) is 1, so every entry of `a` is a real number. -/
private theorem allReal_of_all {s u t v : Shape} {axes : List (Fin s.rank)} [Subsingleton t.Idx]
    (dims : Fin u.rank → Fin s.rank) (hb : u.BroadcastsInDim s dims) (hr : s.ReducesTo axes t) (hv : 0 < v.numel)
    (init : IVec v 1) (j : t.Idx) (a : s.Idx → EReal)
    (e : Host.reduce IntOp.andi
          (cmpf (F := Ideal) .olt (Host.absf (φ := .f32) a)
            (broadcastInDim s dims hb (constant (F := Ideal) u .f32 0x7F800000#32))) init hr hv j = 1#1) :
    AllReal a := by
  intro i
  have hi := Host.reduce_andi_all _ init hr hv j e i
  exact exists_real_of_cmp (a i) hi

/-- The printed precondition compares each array's absolute values with `+∞` and takes the conjunction over all
    entries of all seven arrays; where it is all ones, no entry is an infinity. -/
theorem allReal_of_finite (a0 : Mat 1048576 8) (a1 : Mat 32 8) (a2 : Mat 32 1) (a3 : Mat 16 32) (a4 : Mat 16 1)
    (a5 : Mat 3 16) (a6 : Mat 3 1)
    (h : Cert.Pre_finite_inputs.fn (F := Ideal) a0 a1 a2 a3 a4 a5 a6 = (fun _ => 1#1)) :
    AllReal a0 ∧ AllReal a1 ∧ AllReal a2 ∧ AllReal a3 ∧ AllReal a4 ∧ AllReal a5 ∧ AllReal a6 := by
  have h0 := congrFun h ValueIdx.ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_all _ _ _ _ _ _ a0 e0, allReal_of_all _ _ _ _ _ _ a1 e1, allReal_of_all _ _ _ _ _ _ a2 e2,
    allReal_of_all _ _ _ _ _ _ a3 e3, allReal_of_all _ _ _ _ _ _ a4 e4, allReal_of_all _ _ _ _ _ _ a5 e5,
    allReal_of_all _ _ _ _ _ _ a6 e6⟩

end Cert.Mlp

end
-- ==== Proof.KernelPay.lean ====
/-
  The kernel body's stored value, read at one entry of the output block.
-/
import proofs.«149577_g2000401451430501_pallasbulk_762_21_alg».proof.Proof.Spec
import proofs.«149577_g2000401451430501_pallasbulk_762_21_alg».proof.Proof.Gen.KernelIdeal.Skeleton
import Idealize.ShloMosaic.PureOps.Ideal.Laws
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen Cert.Mlp

/-! ## A matrix product into zero, read at an entry -/

/-- The product of an `[a, k]` matrix with a `[k, n]` matrix, accumulated into the zero matrix, has at `(r, q)` the
    sum over the shared axis of row `r` of the left factor against column `q` of the right one. The contraction index has
    one axis, so the sum re-indexes along `Fin k`, and the two operand indices at `(r, q)` and contraction position `i`
    are `(r, i)` and `(i, q)` coordinate by coordinate. -/
theorem matmul_plain_apply (a k n : Nat) (lhs : FVec Ideal ⟨2, ![a, k]⟩ .f32) (rhs : FVec Ideal ⟨2, ![k, n]⟩ .f32)
    (r : Fin a) (q : Fin n) :
    FloatOps.matmul (DotDims.plain a k n) none lhs rhs (constant ⟨2, ![a, n]⟩ .f32 0x00000000#32) (ix2 r q)
      = lin lhs (fun i => rhs (ix2 i q)) r := by
  rw [Ideal.matmul_constant_zero_apply, ← Equiv.sum_comp (contrEquiv1 (DotDims.plain a k n) k rfl rfl).symm]
  unfold lin
  refine Finset.sum_congr rfl fun i _ => ?_
  have hi := contrEquiv1_symm_val (DotDims.plain a k n) k rfl rfl i
  have el : (DotDims.plain a k n).lhsIdx (ix2 r q) ((contrEquiv1 (DotDims.plain a k n) k rfl rfl).symm i) = ix2 r i :=
    funext fun ax => Fin.ext (by
      match ax with
      | ⟨0, _⟩ => rfl
      | ⟨1, _⟩ => exact hi)
  have er : (DotDims.plain a k n).rhsIdx (ix2 r q) ((contrEquiv1 (DotDims.plain a k n) k rfl rfl).symm i) = ix2 i q :=
    funext fun ax => Fin.ext (by
      match ax with
      | ⟨0, _⟩ => exact hi
      | ⟨1, _⟩ => rfl)
  rw [el, er]

/-- The first layer's product `[32, 8] × [8, 131072]`: its dimension numbers are those of a plain matrix product. -/
theorem matmul1_apply (lhs : FVec Ideal S32x8 .f32) (rhs : FVec Ideal S8x131072 .f32) (r : Fin 32) (q : Fin 131072) :
    FloatOps.matmul dot_S32x8_S8x131072_S32x131072_1_0_0_1_n_n none lhs rhs (constant S32x131072 .f32 0x00000000#32) (ix2 r q)
      = lin lhs (fun i => rhs (ix2 i q)) r :=
  matmul_plain_apply 32 8 131072 lhs rhs r q

/-- The second layer's product `[16, 32] × [32, 131072]`. -/
theorem matmul2_apply (lhs : FVec Ideal S16x32 .f32) (rhs : FVec Ideal S32x131072 .f32) (r : Fin 16) (q : Fin 131072) :
    FloatOps.matmul dot_S16x32_S32x131072_S16x131072_1_0_0_1_n_n none lhs rhs (constant S16x131072 .f32 0x00000000#32) (ix2 r q)
      = lin lhs (fun i => rhs (ix2 i q)) r :=
  matmul_plain_apply 16 32 131072 lhs rhs r q

/-- The third layer's product `[3, 16] × [16, 131072]`. -/
theorem matmul3_apply (lhs : FVec Ideal S3x16 .f32) (rhs : FVec Ideal S16x131072 .f32) (r : Fin 3) (q : Fin 131072) :
    FloatOps.matmul dot_S3x16_S16x131072_S3x131072_1_0_0_1_n_n none lhs rhs (constant S3x131072 .f32 0x00000000#32) (ix2 r q)
      = lin lhs (fun i => rhs (ix2 i q)) r :=
  matmul_plain_apply 3 16 131072 lhs rhs r q

/-- The product `[1, 3] × [3, 131072]` that sums the three exponentials of a column against a row. -/
theorem matmul4_apply (lhs : FVec Ideal S1x3 .f32) (rhs : FVec Ideal S3x131072 .f32) (r : Fin 1) (q : Fin 131072) :
    FloatOps.matmul dot_S1x3_S3x131072_S1x131072_1_0_0_1_n_n none lhs rhs (constant S1x131072 .f32 0x00000000#32) (ix2 r q)
      = lin lhs (fun i => rhs (ix2 i q)) r :=
  matmul_plain_apply 1 3 131072 lhs rhs r q

/-! ## One column broadcast along the lanes -/

/-- An `[a, 1]` array broadcast to `[a, b]` reads, at `(p, c)`, the operand's one column at row `p`: the row axis is
    kept (when `a = 1` the row is `0` either way) and the unit axis reads `0`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The largest entry of a column -/

/-- The maximum over the three rows of a `[3, 131072]` array, taken from the pattern of `-∞`, is at lane `q` the
    fold of `max` over the three entries of column `q`: the reduced index with row `c` put back is `(c, q)`. -/
theorem colMax_apply (src : FVec Ideal S3x131072 .f32) (q : Fin 131072) :
    multiReduction .maximumf [0] S131072 src 0xFF800000#32 reduces_S3x131072_S131072 (.inl rfl) rfl (ix1 q)
      = colMax (fun c => src (ix2 c q)) := by
  refine (Ideal.multiReduction_maximumf_single src _ reduces_S3x131072_S131072 _ _ (ix1 q)).trans ?_
  unfold colMax
  refine congrArg (Finset.fold max _ · _) (funext fun c => congrArg src (funext fun ax => ?_))
  match ax with
  | ⟨0, _⟩ => rfl
  | ⟨1, _⟩ => rfl

/-! ## The transcendental operations at an index -/

/-- An exponential at an index is the exponential of the element. -/
theorem exp_apply {s : Shape} {φ : FTy} (x : FVec Ideal s φ) (i : s.Idx) : exp x i = Ideal.exp (x i) := rfl
/-- A logarithm at an index is the logarithm of the element. -/
theorem log_apply {s : Shape} {φ : FTy} (x : FVec Ideal s φ) (i : s.Idx) : log x i = Ideal.log (x i) := rfl

/-- Entry `(c, q)` of the block the body stores is class `c` of the kernel's log-softmax of the logits of column `q` of
    the loaded `x` block, the weights and (negated, folded) biases as loaded. -/
theorem pay_apply (v0 : Vec Ideal S32x8 .f32) (v1 : Vec Ideal S8x131072 .f32) (v4 : Vec Ideal S32x1 .f32)
    (v8 : Vec Ideal S16x32 .f32) (v10 : Vec Ideal S16x1 .f32) (v14 : Vec Ideal S3x16 .f32) (v16 : Vec Ideal S3x1 .f32)
    (v24 : Vec Ideal S1x3 .f32) (c : Fin 3) (q : Fin 131072) :
    k0_pay1 (F := Ideal) v0 v1 v4 v8 v10 v14 v16 v24 (ix2 c q)
      = lsmK (fun k => v24 (ix2 0 k))
          (logitsK v0 (fun k => v4 (ix2 k 0)) v8 (fun j => v10 (ix2 j 0)) v14 (fun c' => v16 (ix2 c' 0))
            (fun i => v1 (ix2 i q))) c := by
  -- The right side opened: the log-softmax of the logits, the logits as a function of the class.
  unfold k0_pay1 lsmK logitsK
  -- Outside in: both differences and the logarithm read elementwise; each broadcast reads its one row or column; each
  -- product into zero is a row against column `q`; the casts between equal shapes are the identity. What is left
  -- unread is the column maximum, whose operand is a whole array.
  simp only [subf_apply, addf_apply, maximumf_apply, exp_apply, log_apply, shapeCast_self, matmul,
    matmul1_apply, matmul2_apply, matmul3_apply, matmul4_apply, broadcastTo_a1_ab_apply, broadcastTo_1b_ab_apply,
    shapeCast_a_1a_apply]
  -- The maximum over the rows at lane `q` is the fold over the three entries of column `q` …
  rw [colMax_apply]
  -- … and each of those entries is a logit of column `q`, read as above.
  simp only [addf_apply, maximumf_apply, matmul1_apply, matmul2_apply, matmul3_apply, broadcastTo_a1_ab_apply]
  -- The row of the last product against the three exponentials is, by definition, their weighted sum.
  rfl

end Cert.KernelIdeal.Pay

end
-- ==== Proof.KernelVal.lean ====
/-
  The kernel's program, run: what its result array holds, as one function of the argument arrays.

  The host first transposes the batch to [8, 1048576], folds the biases (`W2 b1 + b2`, then `W3 (W2 b1 + b2) + b3`), negates
  the first two for the wide stages and builds a row of ones.  The region then runs over eight lane blocks of 131072
  samples: the batch window and the output window move together at block (0, t), every other window stays at block (0, 0) and
  is its whole array.  Entry `(p, q)` of the block the body stores at point `t` is class `p` of the log-softmax of the
  logits of column `t · 131072 + q`, so the eight written-back blocks tile the [3, 1048576] output with one function of
  the column; the host's last line transposes it.
-/
import proofs.«149577_g2000401451430501_pallasbulk_762_21_alg».proof.Proof.KernelPay
import proofs.«149577_g2000401451430501_pallasbulk_762_21_alg».proof.Proof.Gen.KernelIdeal.Frame
import Idealize.ShloMosaic.Lib.Pipeline.Value
import Idealize.ShloMosaic.Lib.StableHlo.Run
import Idealize.ShloMosaic.Lib.ValueLayout
import Idealize.ShloMosaic.PureOps.Ideal.Laws

noncomputable section

namespace Cert.KernelIdeal.Val

open Idealize.ShloMosaic Idealize.ShloMosaic.TcCoe Idealize.SL.Sem Idealize.ShloMosaic.ValueIdx
open Cert.KernelIdeal Cert.KernelIdeal.Gen Cert.Mlp

section
variable (m : (ℓ : Loc nD τ sig) → Buf (Elt Ideal) ℓ)

/-- The seven argument arrays of core `c`, as launched. -/
abbrev aX (c : Dev nD) : FVec Ideal S1048576x8 .f32 := m ((c : Thread nD τ).loc main_arg0)
abbrev aW1 (c : Dev nD) : FVec Ideal S32x8 .f32 := m ((c : Thread nD τ).loc main_arg1)
abbrev aB1 (c : Dev nD) : FVec Ideal S32x1 .f32 := m ((c : Thread nD τ).loc main_arg2)
abbrev aW2 (c : Dev nD) : FVec Ideal S16x32 .f32 := m ((c : Thread nD τ).loc main_arg3)
abbrev aB2 (c : Dev nD) : FVec Ideal S16x1 .f32 := m ((c : Thread nD τ).loc main_arg4)
abbrev aW3 (c : Dev nD) : FVec Ideal S3x16 .f32 := m ((c : Thread nD τ).loc main_arg5)
abbrev aB3 (c : Dev nD) : FVec Ideal S3x1 .f32 := m ((c : Thread nD τ).loc main_arg6)

/-- The host's second-layer folded bias `W2 b1 + b2` as the program computes it. -/
def hB2 (c : Dev nD) : FVec Ideal S16x1 .f32 :=
  addf (Host.dotGeneral (F := Ideal) dot_S16x32_S32x1_S16x1_1_0_0_1_n_n none (aW2 m c) (aB1 m c)) (aB2 m c)

/-! ## What the region finds in the arrays the host computed -/

theorem V_v0 (c : Dev nD) : V m c main_v0 = transpose S8x1048576 [1, 0] (aX m c) transposes_S1048576x8_S8x1048576_1_0 := by
  show StableHlo.after hostOps0 (fun b => m (c, b)) (Proc.devRef .tc main_v0) = _
  after_results

theorem V_v6 (c : Dev nD) : V m c main_v6 = Host.negf (F := Ideal) (aB1 m c) := by
  show StableHlo.after hostOps0 (fun b => m (c, b)) (Proc.devRef .tc main_v6) = _
  after_results

theorem V_v5 (c : Dev nD) : V m c main_v5 = broadcastInDim S1x3 ![] bcast_S_S1x3 (constant (F := Ideal) S_ .f32 0x3F800000#32) := by
  show StableHlo.after hostOps0 (fun b => m (c, b)) (Proc.devRef .tc main_v5) = _
  after_results

theorem V_v7 (c : Dev nD) : V m c main_v7 = Host.negf (F := Ideal) (hB2 m c) := by
  show StableHlo.after hostOps0 (fun b => m (c, b)) (Proc.devRef .tc main_v7) = _
  unfold hB2
  after_results

theorem V_v4 (c : Dev nD) : V m c main_v4 = addf (Host.dotGeneral (F := Ideal) dot_S3x16_S16x1_S3x1_1_0_0_1_n_n none (aW3 m c) (hB2 m c)) (aB3 m c) := by
  show StableHlo.after hostOps0 (fun b => m (c, b)) (Proc.devRef .tc main_v4) = _
  unfold hB2
  after_results

/-! ## The arrays as the region finds them, at their literal types -/

abbrev rXT (c : Dev nD) : FVec Ideal S8x1048576 .f32 := V m c main_v0
abbrev rW1 (c : Dev nD) : FVec Ideal S32x8 .f32 := V m c main_arg1
abbrev rNB1 (c : Dev nD) : FVec Ideal S32x1 .f32 := V m c main_v6
abbrev rW2 (c : Dev nD) : FVec Ideal S16x32 .f32 := V m c main_arg3
abbrev rNB2 (c : Dev nD) : FVec Ideal S16x1 .f32 := V m c main_v7
abbrev rW3 (c : Dev nD) : FVec Ideal S3x16 .f32 := V m c main_arg5
abbrev rB3F (c : Dev nD) : FVec Ideal S3x1 .f32 := V m c main_v4
abbrev rOnes (c : Dev nD) : FVec Ideal S1x3 .f32 := V m c main_v5

/-- The region's output array where covered: column `n` holds the kernel's log-softmax of the logits of column `n` of the
    transposed batch. -/
def GT (c : Dev nD) : FVec Ideal S3x1048576 .f32 := fun j =>
  lsmK (fun k => rOnes m c (ix2 0 k))
    (logitsK (rW1 m c) (fun k => rNB1 m c (ix2 k 0)) (rW2 m c) (fun q => rNB2 m c (ix2 q 0)) (rW3 m c)
      (fun c' => rB3F m c (ix2 c' 0)) (fun i => rXT m c (ix2 i (j 1)))) (j 0)

theorem hz : (![0, 0] : Fin 2 → Nat) = fun _ => 0 := funext fun a => by fin_cases a <;> rfl

/-- The printed index maps over the grid: the weight and bias windows sit at block (0, 0); the batch window and the output
    window move together along the lanes, at block (0, t). -/
theorem idx_facts : ∀ t : Fin cfg0.N,
    win0_0.index t (0 : Fin 2) = 0 ∧ win0_0.index t (1 : Fin 2) = t.val
    ∧ win0_8.index t (0 : Fin 2) = 0 ∧ win0_8.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- A window at block (0, 0) whose block is its whole array reads the array. -/
theorem blk1 (c : Dev nD) (t : Fin cfg0.N) : (iblk m c 1 t : FVec Ideal S32x8 .f32) = rW1 m c := by
  funext y
  show V m c main_arg1 (((cfg0.win 1).blk t).view.emb y) = V m c main_arg1 y
  refine congrArg _ (funext fun a => Fin.ext ?_)
  obtain ⟨-, -, -, -, e0, e1, -⟩ := idx_facts t
  match a with
  | ⟨0, _⟩ => show win0_1.index t (0 : Fin 2) * 32 + 1 * (y 0).val = (y 0).val; omega
  | ⟨1, _⟩ => show win0_1.index t (1 : Fin 2) * 8 + 1 * (y 1).val = (y 1).val; omega
theorem blk2 (c : Dev nD) (t : Fin cfg0.N) : (iblk m c 2 t : FVec Ideal S32x1 .f32) = rNB1 m c := by
  funext y
  show V m c main_v6 (((cfg0.win 2).blk t).view.emb y) = V m c main_v6 y
  refine congrArg _ (funext fun a => Fin.ext ?_)
  have h := idx_facts t
  match a with
  | ⟨0, _⟩ => show win0_2.index t (0 : Fin 2) * 32 + 1 * (y 0).val = (y 0).val; omega
  | ⟨1, _⟩ => show win0_2.index t (1 : Fin 2) * 1 + 1 * (y 1).val = (y 1).val; omega
theorem blk3 (c : Dev nD) (t : Fin cfg0.N) : (iblk m c 3 t : FVec Ideal S16x32 .f32) = rW2 m c := by
  funext y
  show V m c main_arg3 (((cfg0.win 3).blk t).view.emb y) = V m c main_arg3 y
  refine congrArg _ (funext fun a => Fin.ext ?_)
  have h := idx_facts t
  match a with
  | ⟨0, _⟩ => show win0_3.index t (0 : Fin 2) * 16 + 1 * (y 0).val = (y 0).val; omega
  | ⟨1, _⟩ => show win0_3.index t (1 : Fin 2) * 32 + 1 * (y 1).val = (y 1).val; omega
theorem blk4 (c : Dev nD) (t : Fin cfg0.N) : (iblk m c 4 t : FVec Ideal S16x1 .f32) = rNB2 m c := by
  funext y
  show V m c main_v7 (((cfg0.win 4).blk t).view.emb y) = V m c main_v7 y
  refine congrArg _ (funext fun a => Fin.ext ?_)
  have h := idx_facts t
  match a with
  | ⟨0, _⟩ => show win0_4.index t (0 : Fin 2) * 16 + 1 * (y 0).val = (y 0).val; omega
  | ⟨1, _⟩ => show win0_4.index t (1 : Fin 2) * 1 + 1 * (y 1).val = (y 1).val; omega
theorem blk5 (c : Dev nD) (t : Fin cfg0.N) : (iblk m c 5 t : FVec Ideal S3x16 .f32) = rW3 m c := by
  funext y
  show V m c main_arg5 (((cfg0.win 5).blk t).view.emb y) = V m c main_arg5 y
  refine congrArg _ (funext fun a => Fin.ext ?_)
  have h := idx_facts t
  match a with
  | ⟨0, _⟩ => show win0_5.index t (0 : Fin 2) * 3 + 1 * (y 0).val = (y 0).val; omega
  | ⟨1, _⟩ => show win0_5.index t (1 : Fin 2) * 16 + 1 * (y 1).val = (y 1).val; omega
theorem blk6 (c : Dev nD) (t : Fin cfg0.N) : (iblk m c 6 t : FVec Ideal S3x1 .f32) = rB3F m c := by
  funext y
  show V m c main_v4 (((cfg0.win 6).blk t).view.emb y) = V m c main_v4 y
  refine congrArg _ (funext fun a => Fin.ext ?_)
  have h := idx_facts t
  match a with
  | ⟨0, _⟩ => show win0_6.index t (0 : Fin 2) * 3 + 1 * (y 0).val = (y 0).val; omega
  | ⟨1, _⟩ => show win0_6.index t (1 : Fin 2) * 1 + 1 * (y 1).val = (y 1).val; omega
theorem blk7 (c : Dev nD) (t : Fin cfg0.N) : (iblk m c 7 t : FVec Ideal S1x3 .f32) = rOnes m c := by
  funext y
  show V m c main_v5 (((cfg0.win 7).blk t).view.emb y) = V m c main_v5 y
  refine congrArg _ (funext fun a => Fin.ext ?_)
  have h := idx_facts t
  match a with
  | ⟨0, _⟩ => show win0_7.index t (0 : Fin 2) * 1 + 1 * (y 0).val = (y 0).val; omega
  | ⟨1, _⟩ => show win0_7.index t (1 : Fin 2) * 3 + 1 * (y 1).val = (y 1).val; omega

/-- Column `q` of the batch window's block at point `t` is the column of the transposed batch that entry `(p, q)` of
    the output window's block at `t` lands on: the two windows move together. -/
theorem blk0 (c : Dev nD) (t : Fin cfg0.N) (i : Fin 8) (q : Fin 131072) (p : Fin 3) :
    (iblk m c 0 t : FVec Ideal S8x131072 .f32) (ix2 i q)
      = rXT m c (ix2 i ((((cfg0.win 8).blk t).view.emb (ix2 p q) : S3x1048576.Idx) 1)) := by
  show V m c main_v0 (((cfg0.win 0).blk t).view.emb (ix2 i q)) = V m c main_v0 _
  refine congrArg _ (funext fun a => Fin.ext ?_)
  have h := idx_facts t
  match a with
  | ⟨0, _⟩ => show win0_0.index t (0 : Fin 2) * 8 + 1 * i.val = i.val; omega
  | ⟨1, _⟩ => show win0_0.index t (1 : Fin 2) * 131072 + 1 * q.val = win0_8.index t (1 : Fin 2) * 131072 + 1 * q.val; omega

/-- Row `p` of the output window's block is row `p` of the array. -/
theorem row8 (t : Fin cfg0.N) (q : Fin 131072) (p : Fin 3) :
    ((((cfg0.win 8).blk t).view.emb (ix2 p q) : S3x1048576.Idx) 0) = p := by
  apply Fin.ext
  have h := idx_facts t
  show win0_8.index t (0 : Fin 2) * 3 + 1 * p.val = p.val
  omega

/-- The specification depends on its arguments only through their values. -/
theorem spec_congr (X7 A7 : FVec Ideal S1x3 .f32) (X1 A1 : FVec Ideal S32x8 .f32) (X2 A2 : FVec Ideal S32x1 .f32)
    (X3 A3 : FVec Ideal S16x32 .f32) (X4 A4 : FVec Ideal S16x1 .f32) (X5 A5 : FVec Ideal S3x16 .f32) (X6 A6 : FVec Ideal S3x1 .f32)
    (colX colA : Fin 8 → EReal) (p p' : Fin 3)
    (h7 : X7 = A7) (h1 : X1 = A1) (h2 : X2 = A2) (h3 : X3 = A3) (h4 : X4 = A4) (h5 : X5 = A5) (h6 : X6 = A6)
    (hcol : colX = colA) (hp : p = p') :
    lsmK (fun k => X7 (ix2 0 k)) (logitsK X1 (fun k => X2 (ix2 k 0)) X3 (fun j => X4 (ix2 j 0)) X5 (fun c' => X6 (ix2 c' 0)) colX) p
      = lsmK (fun k => A7 (ix2 0 k)) (logitsK A1 (fun k => A2 (ix2 k 0)) A3 (fun j => A4 (ix2 j 0)) A5 (fun c' => A6 (ix2 c' 0)) colA) p' := by
  subst h7 h1 h2 h3 h4 h5 h6 hcol hp; rfl

/-- WHAT POINT `t` WRITES BACK is block `t` of `GT`. -/
theorem flushed_eq (c : Dev nD) (t : Fin cfg0.N) :
    (dats (F := Ideal) m 0 c).flushed 8 t = ((cfg0.win 8).blk t).view.read (Elt Ideal) (GT m c) := by
  show (cfg0.win 8).cut (grid0.coords t) ((dats (F := Ideal) m 0 c).after 8 t) = _
  rw [after0_8]
  unfold out0_8
  rw [View.canon_unit_zero hz]
  simp only [View.ld_unit_zero (S := S32x8) hz, View.ld_unit_zero (S := S8x131072) hz, View.ld_unit_zero (S := S32x1) hz,
    View.ld_unit_zero (S := S16x32) hz, View.ld_unit_zero (S := S16x1) hz, View.ld_unit_zero (S := S3x16) hz,
    View.ld_unit_zero (S := S3x1) hz, View.ld_unit_zero (S := S1x3) hz]
  funext y
  obtain ⟨p, q, rfl⟩ : ∃ (p : Fin 3) (q : Fin 131072), y = ix2 p q := ⟨y 0, y 1, eq_ix2 y⟩
  show k0_pay1 (F := Ideal) (iblk m c 1 t) (iblk m c 0 t) (iblk m c 2 t) (iblk m c 3 t) (iblk m c 4 t) (iblk m c 5 t)
      (iblk m c 6 t) (iblk m c 7 t) (ix2 p q) = GT m c (((cfg0.win 8).blk t).view.emb (ix2 p q))
  refine (Pay.pay_apply _ _ _ _ _ _ _ _ p q).trans ?_
  unfold GT
  exact spec_congr _ _ _ _ _ _ _ _ _ _ _ _ _ _ _ _ _ _ (blk7 m c t) (blk1 m c t) (blk2 m c t) (blk3 m c t) (blk4 m c t)
    (blk5 m c t) (blk6 m c t) (funext fun i => blk0 m c t i q p) (row8 t q p).symm

/-- An index of the output array is in point `t`'s block iff each coordinate is in the block's range on its axis. -/
theorem mem_blk (t : Fin cfg0.N) (i : S3x1048576.Idx) :
    i ∈ ((cfg0.win 8).blk t).view.set ↔ ∀ a : Fin 2, win0_8.index t a * S3x131072.size a ≤ (i a).val ∧ (i a).val < win0_8.index t a * S3x131072.size a + S3x131072.size a := by
  show i ∈ ((View.whole main_v8).slice (win0_8.rect t)).set ↔ _
  rw [View.set_slice_whole, Rect.mem_set_unit]
  exact Iff.rfl

/-- The eight blocks tile the output array: column `n` is in the block of point `n / 131072`. -/
theorem cover (i : S3x1048576.Idx) :
    ∃ t : Fin cfg0.N, (cfg0.win 8).flush t = true ∧ i ∈ ((cfg0.win 8).blk t).view.set := by
  have hi0 : (i 0).val < 3 := (i 0).isLt
  have hi1 : (i 1).val < 1048576 := (i 1).isLt
  have hN : (i 1).val / 131072 < cfg0.N := by
    show _ < grid0.N
    rw [N_0]; omega
  refine ⟨⟨(i 1).val / 131072, hN⟩, flush0_8 _, ?_⟩
  rw [mem_blk]
  have h := idx_facts ⟨(i 1).val / 131072, hN⟩
  intro a
  match a with
  | ⟨0, _⟩ =>
    show win0_8.index ⟨(i 1).val / 131072, hN⟩ (0 : Fin 2) * 3 ≤ (i 0).val ∧ (i 0).val < win0_8.index ⟨(i 1).val / 131072, hN⟩ (0 : Fin 2) * 3 + 3
    omega
  | ⟨1, _⟩ =>
    show win0_8.index ⟨(i 1).val / 131072, hN⟩ (1 : Fin 2) * 131072 ≤ (i 1).val ∧ (i 1).val < win0_8.index ⟨(i 1).val / 131072, hN⟩ (1 : Fin 2) * 131072 + 131072
    have h1 : win0_8.index ⟨(i 1).val / 131072, hN⟩ (1 : Fin 2) = (i 1).val / 131072 := h.2.2.2.1
    omega

/-- THE OUTPUT ARRAY after the region is `GT`. -/
theorem final (c : Dev nD) : (dats (F := Ideal) m 0 c).arrAt 8 cfg0.N = GT m c :=
  (dats (F := Ideal) m 0 c).arrAt_eq_of_cover 8 (GT m c) (fun t _ => flushed_eq m c t) cover

/-- The program's result is the transpose of the region's output array. -/
theorem tail (c : Dev nD) :
    Pipeline.afterTail₀ cfgs (dats (F := Ideal) m) 0 (V0 m) [hostOps1] c main_v9
      = transpose S1048576x3 [1, 0] (GT m c) transposes_S3x1048576_S1048576x3_1_0 := by
  unfold Pipeline.afterTail₀
  show StableHlo.after hostOps1 _ (Proc.devRef .tc main_v9) = _
  after_results
  exact congrArg (fun A => transpose S1048576x3 [1, 0] A transposes_S3x1048576_S1048576x3_1_0)
    ((Pipeline.withArrays_arr spec0 launch0.win.arr_inj c _ _ 8).trans (final m c))

/-! ## The host's folded biases, read at an entry -/

theorem lhs_b2_0 (i : S16x1.Idx) (q : dot_S16x32_S32x1_S16x1_1_0_0_1_n_n.contr.Idx) : (dot_S16x32_S32x1_S16x1_1_0_0_1_n_n.lhsIdx i q 0).val = (i 0).val := by
  unfold DotDims.lhsIdx
  rw [dif_neg (show ¬(0 : Fin S16x32.rank) ∈ dot_S16x32_S32x1_S16x1_1_0_0_1_n_n.lhsBatch by decide), dif_pos (show (0 : Fin S16x32.rank) ∈ dot_S16x32_S32x1_S16x1_1_0_0_1_n_n.lhsNonContracting by decide)]
  rfl
theorem lhs_b2_1 (i : S16x1.Idx) (q : dot_S16x32_S32x1_S16x1_1_0_0_1_n_n.contr.Idx) : (dot_S16x32_S32x1_S16x1_1_0_0_1_n_n.lhsIdx i q 1).val = (q ⟨0, by decide⟩).val :=
  dot_S16x32_S32x1_S16x1_1_0_0_1_n_n.lhsIdx_val_of_single rfl i q
theorem rhs_b2_0 (i : S16x1.Idx) (q : dot_S16x32_S32x1_S16x1_1_0_0_1_n_n.contr.Idx) : (dot_S16x32_S32x1_S16x1_1_0_0_1_n_n.rhsIdx i q 0).val = (q ⟨0, by decide⟩).val :=
  dot_S16x32_S32x1_S16x1_1_0_0_1_n_n.rhsIdx_val_of_single rfl i q
theorem rhs_b2_1 (i : S16x1.Idx) (q : dot_S16x32_S32x1_S16x1_1_0_0_1_n_n.contr.Idx) : (dot_S16x32_S32x1_S16x1_1_0_0_1_n_n.rhsIdx i q 1).val = (i 1).val := by
  unfold DotDims.rhsIdx
  rw [dif_neg (show ¬(1 : Fin S32x1.rank) ∈ dot_S16x32_S32x1_S16x1_1_0_0_1_n_n.rhsBatch by decide), dif_pos (show (1 : Fin S32x1.rank) ∈ dot_S16x32_S32x1_S16x1_1_0_0_1_n_n.rhsNonContracting by decide)]
  rfl

/-- The host's product of a [16, 32] matrix with a [32, 1] column, read at row `r`: the row against the column. -/
theorem dot_b2_apply (L : FVec Ideal S16x32 .f32) (R : FVec Ideal S32x1 .f32) (r : Fin 16) :
    Host.dotGeneral (F := Ideal) dot_S16x32_S32x1_S16x1_1_0_0_1_n_n none L R (ix2 r 0) = lin L (fun k => R (ix2 k 0)) r := by
  simp only [Host.dotGeneral]
  rw [Ideal.dotGeneral_apply, ← Equiv.sum_comp (contrEquiv1 dot_S16x32_S32x1_S16x1_1_0_0_1_n_n 32 rfl rfl).symm]
  unfold lin
  refine Finset.sum_congr rfl fun k _ => ?_
  have hk := contrEquiv1_symm_val dot_S16x32_S32x1_S16x1_1_0_0_1_n_n 32 rfl rfl k
  have el : dot_S16x32_S32x1_S16x1_1_0_0_1_n_n.lhsIdx (ix2 r 0) ((contrEquiv1 dot_S16x32_S32x1_S16x1_1_0_0_1_n_n 32 rfl rfl).symm k) = ix2 r k := funext fun a => Fin.ext (by
    match a with
    | ⟨0, _⟩ => exact lhs_b2_0 _ _
    | ⟨1, _⟩ => exact (lhs_b2_1 _ _).trans hk)
  have er : dot_S16x32_S32x1_S16x1_1_0_0_1_n_n.rhsIdx (ix2 r 0) ((contrEquiv1 dot_S16x32_S32x1_S16x1_1_0_0_1_n_n 32 rfl rfl).symm k) = ix2 k 0 := funext fun a => Fin.ext (by
    match a with
    | ⟨0, _⟩ => exact (rhs_b2_0 _ _).trans hk
    | ⟨1, _⟩ => exact rhs_b2_1 _ _)
  rw [el, er]

theorem lhs_b3_0 (i : S3x1.Idx) (q : dot_S3x16_S16x1_S3x1_1_0_0_1_n_n.contr.Idx) : (dot_S3x16_S16x1_S3x1_1_0_0_1_n_n.lhsIdx i q 0).val = (i 0).val := by
  unfold DotDims.lhsIdx
  rw [dif_neg (show ¬(0 : Fin S3x16.rank) ∈ dot_S3x16_S16x1_S3x1_1_0_0_1_n_n.lhsBatch by decide), dif_pos (show (0 : Fin S3x16.rank) ∈ dot_S3x16_S16x1_S3x1_1_0_0_1_n_n.lhsNonContracting by decide)]
  rfl
theorem lhs_b3_1 (i : S3x1.Idx) (q : dot_S3x16_S16x1_S3x1_1_0_0_1_n_n.contr.Idx) : (dot_S3x16_S16x1_S3x1_1_0_0_1_n_n.lhsIdx i q 1).val = (q ⟨0, by decide⟩).val :=
  dot_S3x16_S16x1_S3x1_1_0_0_1_n_n.lhsIdx_val_of_single rfl i q
theorem rhs_b3_0 (i : S3x1.Idx) (q : dot_S3x16_S16x1_S3x1_1_0_0_1_n_n.contr.Idx) : (dot_S3x16_S16x1_S3x1_1_0_0_1_n_n.rhsIdx i q 0).val = (q ⟨0, by decide⟩).val :=
  dot_S3x16_S16x1_S3x1_1_0_0_1_n_n.rhsIdx_val_of_single rfl i q
theorem rhs_b3_1 (i : S3x1.Idx) (q : dot_S3x16_S16x1_S3x1_1_0_0_1_n_n.contr.Idx) : (dot_S3x16_S16x1_S3x1_1_0_0_1_n_n.rhsIdx i q 1).val = (i 1).val := by
  unfold DotDims.rhsIdx
  rw [dif_neg (show ¬(1 : Fin S16x1.rank) ∈ dot_S3x16_S16x1_S3x1_1_0_0_1_n_n.rhsBatch by decide), dif_pos (show (1 : Fin S16x1.rank) ∈ dot_S3x16_S16x1_S3x1_1_0_0_1_n_n.rhsNonContracting by decide)]
  rfl

/-- The host's product of a [3, 16] matrix with a [16, 1] column, read at row `r`: the row against the column. -/
theorem dot_b3_apply (L : FVec Ideal S3x16 .f32) (R : FVec Ideal S16x1 .f32) (r : Fin 3) :
    Host.dotGeneral (F := Ideal) dot_S3x16_S16x1_S3x1_1_0_0_1_n_n none L R (ix2 r 0) = lin L (fun k => R (ix2 k 0)) r := by
  simp only [Host.dotGeneral]
  rw [Ideal.dotGeneral_apply, ← Equiv.sum_comp (contrEquiv1 dot_S3x16_S16x1_S3x1_1_0_0_1_n_n 16 rfl rfl).symm]
  unfold lin
  refine Finset.sum_congr rfl fun k _ => ?_
  have hk := contrEquiv1_symm_val dot_S3x16_S16x1_S3x1_1_0_0_1_n_n 16 rfl rfl k
  have el : dot_S3x16_S16x1_S3x1_1_0_0_1_n_n.lhsIdx (ix2 r 0) ((contrEquiv1 dot_S3x16_S16x1_S3x1_1_0_0_1_n_n 16 rfl rfl).symm k) = ix2 r k := funext fun a => Fin.ext (by
    match a with
    | ⟨0, _⟩ => exact lhs_b3_0 _ _
    | ⟨1, _⟩ => exact (lhs_b3_1 _ _).trans hk)
  have er : dot_S3x16_S16x1_S3x1_1_0_0_1_n_n.rhsIdx (ix2 r 0) ((contrEquiv1 dot_S3x16_S16x1_S3x1_1_0_0_1_n_n 16 rfl rfl).symm k) = ix2 k 0 := funext fun a => Fin.ext (by
    match a with
    | ⟨0, _⟩ => exact (rhs_b3_0 _ _).trans hk
    | ⟨1, _⟩ => exact rhs_b3_1 _ _)
  rw [el, er]

theorem hB2_apply (c : Dev nD) (q : Fin 16) : hB2 m c (ix2 q 0) = bias2 (aW2 m c) (aB1 m c) (aB2 m c) q := by
  unfold hB2 bias2
  show Host.dotGeneral (F := Ideal) dot_S16x32_S32x1_S16x1_1_0_0_1_n_n none (aW2 m c) (aB1 m c) (ix2 q 0) + aB2 m c (ix2 q 0) = _
  rw [dot_b2_apply]

/-! ## The region's output array is the specification, transposed -/

theorem GT_result (c : Dev nD) (n : Fin 1048576) (p : Fin 3) :
    GT m c (ix2 p n) = resultK (aX m c) (aW1 m c) (aB1 m c) (aW2 m c) (aB2 m c) (aW3 m c) (aB3 m c) (ix2 n p) := by
  have e7 : (fun k : Fin 3 => rOnes m c (ix2 0 k)) = fun _ => Ideal.ofBits .f32 0x3F800000#32 := by
    funext k; show V m c main_v5 (ix2 0 k) = _; rw [V_v5]; rfl
  have e1 : rW1 m c = aW1 m c := V_main_arg1 m c
  have e2 : (fun k : Fin 32 => rNB1 m c (ix2 k 0)) = fun k => -(aB1 m c (ix2 k 0)) := by
    funext k; show V m c main_v6 (ix2 k 0) = _; rw [V_v6]; rfl
  have e3 : rW2 m c = aW2 m c := V_main_arg3 m c
  have e4 : (fun q : Fin 16 => rNB2 m c (ix2 q 0)) = fun q => -(bias2 (aW2 m c) (aB1 m c) (aB2 m c) q) := by
    funext q; show V m c main_v7 (ix2 q 0) = _; rw [V_v7]
    show -(hB2 m c (ix2 q 0)) = _
    rw [hB2_apply]
  have e5 : rW3 m c = aW3 m c := V_main_arg5 m c
  have e6 : (fun c' : Fin 3 => rB3F m c (ix2 c' 0)) = bias3 (aW2 m c) (aB1 m c) (aB2 m c) (aW3 m c) (aB3 m c) := by
    funext c'; show V m c main_v4 (ix2 c' 0) = _; rw [V_v4]
    show Host.dotGeneral (F := Ideal) dot_S3x16_S16x1_S3x1_1_0_0_1_n_n none (aW3 m c) (hB2 m c) (ix2 c' 0) + aB3 m c (ix2 c' 0) = _
    rw [dot_b3_apply]
    unfold bias3
    rw [show (fun k : Fin 16 => hB2 m c (ix2 k 0)) = bias2 (aW2 m c) (aB1 m c) (aB2 m c) from funext fun k => hB2_apply m c k]
  have e0 : (fun i : Fin 8 => rXT m c (ix2 i n)) = fun i => aX m c (ix2 n i) := by
    funext i; show V m c main_v0 (ix2 i n) = _; rw [V_v0]
    exact transpose_ix2_apply _ _ i n
  show lsmK (fun k => rOnes m c (ix2 0 k))
      (logitsK (rW1 m c) (fun k => rNB1 m c (ix2 k 0)) (rW2 m c) (fun q => rNB2 m c (ix2 q 0)) (rW3 m c)
        (fun c' => rB3F m c (ix2 c' 0)) (fun i => rXT m c (ix2 i n))) p
    = lsmK (fun _ => Ideal.ofBits .f32 0x3F800000#32)
      (logitsK (aW1 m c) (fun k => -(aB1 m c (ix2 k 0))) (aW2 m c) (fun q => -(bias2 (aW2 m c) (aB1 m c) (aB2 m c) q)) (aW3 m c)
        (bias3 (aW2 m c) (aB1 m c) (aB2 m c) (aW3 m c) (aB3 m c)) (fun i => aX m c (ix2 n i))) p
  rw [e7, e1, e2, e3, e4, e5, e6, e0]

end

/-! ## The run, read -/

/-- Every weakly fair execution of the kernel's program ends with its result at `resultK` of the arguments, and the
    arguments unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v9) = resultK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) := by
  refine (θ_run defs _ _).mono (fun r h c => ⟨?_,
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main (F := Ideal) m ρ)
  rw [(h c).2 main_v9 (Pipeline.mem_restRefs_of main_v9 (by decide) (by decide)), tail]
  funext j
  obtain ⟨n, p, rfl⟩ : ∃ (n : Fin 1048576) (p : Fin 3), j = ix2 n p := ⟨j 0, j 1, eq_ix2 j⟩
  rw [transpose_ix2_apply]
  exact GT_result m c n p

end Cert.KernelIdeal.Val

end
-- ==== Proof.RefPay.lean ====
/-
  The reference body's stored value, read at one entry of the output block.

  The body is three affine layers (a matrix product into a zero accumulator plus a column of biases spread along the
  lanes), a `max` with zero after the first two, and a log-softmax down the three classes of each lane: the column's
  maximum is taken off, the exponentials are summed, and the logarithm of the sum is taken off.  Each operation that is
  not pointwise is first read at an index `(r, q)` by a lemma of its own (the three products as `lin`, the column
  broadcast, the two reductions over the class axis, the cast to one row and the row broadcast); the main theorem then
  pushes the index `(c, q)` through the body with them and meets `lsmR (logitsR …)` unfolded.
-/
import proofs.«149577_g2000401451430501_pallasbulk_762_21_alg».proof.Proof.Spec
import proofs.«149577_g2000401451430501_pallasbulk_762_21_alg».proof.Proof.Gen.ReferenceIdeal.Skeleton
import Idealize.ShloMosaic.PureOps.Ideal.Laws
import Idealize.ShloMosaic.Lib.Pipeline.Value
import Idealize.ShloMosaic.Lib.ValueLayout

noncomputable section

namespace Cert.ReferenceIdeal.Pay

open Idealize.ShloMosaic Idealize.ShloMosaic.ValueIdx Cert.ReferenceIdeal Cert.ReferenceIdeal.Gen Cert.Mlp

/-- A column `[a, 1]` broadcast along the minor axis to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first product's left operand index at output `i` and contraction position `q`: its row is `i`'s row … -/
theorem lhs_d1_0 (i : S32x8192.Idx) (q : dot_S32x8_S8192x8_S32x8192_1_1_0_0_n_n.contr.Idx) :
    (dot_S32x8_S8192x8_S32x8192_1_1_0_0_n_n.lhsIdx i q 0).val = (i 0).val := by
  unfold DotDims.lhsIdx
  rw [dif_neg (show ¬(0 : Fin S32x8.rank) ∈ dot_S32x8_S8192x8_S32x8192_1_1_0_0_n_n.lhsBatch by decide),
    dif_pos (show (0 : Fin S32x8.rank) ∈ dot_S32x8_S8192x8_S32x8192_1_1_0_0_n_n.lhsNonContracting by decide)]
  rfl
/-- … and its column is the contraction coordinate. -/
theorem lhs_d1_1 (i : S32x8192.Idx) (q : dot_S32x8_S8192x8_S32x8192_1_1_0_0_n_n.contr.Idx) :
    (dot_S32x8_S8192x8_S32x8192_1_1_0_0_n_n.lhsIdx i q 1).val = (q ⟨0, by decide⟩).val :=
  dot_S32x8_S8192x8_S32x8192_1_1_0_0_n_n.lhsIdx_val_of_single rfl i q
/-- The first product's right operand index: its ROW is `i`'s column (the right operand is contracted along its minor
    axis, like the left one) … -/
theorem rhs_d1_0 (i : S32x8192.Idx) (q : dot_S32x8_S8192x8_S32x8192_1_1_0_0_n_n.contr.Idx) :
    (dot_S32x8_S8192x8_S32x8192_1_1_0_0_n_n.rhsIdx i q 0).val = (i 1).val := by
  unfold DotDims.rhsIdx
  rw [dif_neg (show ¬(0 : Fin S8192x8.rank) ∈ dot_S32x8_S8192x8_S32x8192_1_1_0_0_n_n.rhsBatch by decide),
    dif_pos (show (0 : Fin S8192x8.rank) ∈ dot_S32x8_S8192x8_S32x8192_1_1_0_0_n_n.rhsNonContracting by decide)]
  rfl
/-- … and its column is the contraction coordinate. -/
theorem rhs_d1_1 (i : S32x8192.Idx) (q : dot_S32x8_S8192x8_S32x8192_1_1_0_0_n_n.contr.Idx) :
    (dot_S32x8_S8192x8_S32x8192_1_1_0_0_n_n.rhsIdx i q 1).val = (q ⟨0, by decide⟩).val :=
  dot_S32x8_S8192x8_S32x8192_1_1_0_0_n_n.rhsIdx_val_of_single rfl i q

/-- The first product into the zero accumulator: entry `(r, q)` is row `r` of the left matrix against ROW `q` of the
    right one (both operands are contracted along their minor axis). -/
theorem matmul1_apply (lhs : FVec Ideal S32x8 .f32) (rhs : FVec Ideal S8192x8 .f32) (r : Fin 32) (q : Fin 8192) :
    matmul dot_S32x8_S8192x8_S32x8192_1_1_0_0_n_n none lhs rhs (constant (F := Ideal) S32x8192 .f32 0x00000000#32) (ix2 r q)
      = lin lhs (fun i => rhs (ix2 q i)) r := by
  simp only [matmul]
  rw [Ideal.matmul_constant_zero_apply,
    ← Equiv.sum_comp (contrEquiv1 dot_S32x8_S8192x8_S32x8192_1_1_0_0_n_n 8 rfl rfl).symm]
  unfold lin
  refine Finset.sum_congr rfl fun k _ => ?_
  have hk := contrEquiv1_symm_val dot_S32x8_S8192x8_S32x8192_1_1_0_0_n_n 8 rfl rfl k
  have el : dot_S32x8_S8192x8_S32x8192_1_1_0_0_n_n.lhsIdx (ix2 r q)
      ((contrEquiv1 dot_S32x8_S8192x8_S32x8192_1_1_0_0_n_n 8 rfl rfl).symm k) = ix2 r k := funext fun a => Fin.ext (by
    match a with
    | ⟨0, _⟩ => exact lhs_d1_0 _ _
    | ⟨1, _⟩ => exact (lhs_d1_1 _ _).trans hk)
  have er : dot_S32x8_S8192x8_S32x8192_1_1_0_0_n_n.rhsIdx (ix2 r q)
      ((contrEquiv1 dot_S32x8_S8192x8_S32x8192_1_1_0_0_n_n 8 rfl rfl).symm k) = ix2 q k := funext fun a => Fin.ext (by
    match a with
    | ⟨0, _⟩ => exact rhs_d1_0 _ _
    | ⟨1, _⟩ => exact (rhs_d1_1 _ _).trans hk)
  rw [el, er]

/-- The second product's left operand index at output `i` and contraction position `q`: its row is `i`'s row … -/
theorem lhs_d2_0 (i : S16x8192.Idx) (q : dot_S16x32_S32x8192_S16x8192_1_0_0_1_n_n.contr.Idx) :
    (dot_S16x32_S32x8192_S16x8192_1_0_0_1_n_n.lhsIdx i q 0).val = (i 0).val := by
  unfold DotDims.lhsIdx
  rw [dif_neg (show ¬(0 : Fin S16x32.rank) ∈ dot_S16x32_S32x8192_S16x8192_1_0_0_1_n_n.lhsBatch by decide),
    dif_pos (show (0 : Fin S16x32.rank) ∈ dot_S16x32_S32x8192_S16x8192_1_0_0_1_n_n.lhsNonContracting by decide)]
  rfl
/-- … and its column is the contraction coordinate. -/
theorem lhs_d2_1 (i : S16x8192.Idx) (q : dot_S16x32_S32x8192_S16x8192_1_0_0_1_n_n.contr.Idx) :
    (dot_S16x32_S32x8192_S16x8192_1_0_0_1_n_n.lhsIdx i q 1).val = (q ⟨0, by decide⟩).val :=
  dot_S16x32_S32x8192_S16x8192_1_0_0_1_n_n.lhsIdx_val_of_single rfl i q
/-- The second product's right operand index: its row is the contraction coordinate … -/
theorem rhs_d2_0 (i : S16x8192.Idx) (q : dot_S16x32_S32x8192_S16x8192_1_0_0_1_n_n.contr.Idx) :
    (dot_S16x32_S32x8192_S16x8192_1_0_0_1_n_n.rhsIdx i q 0).val = (q ⟨0, by decide⟩).val :=
  dot_S16x32_S32x8192_S16x8192_1_0_0_1_n_n.rhsIdx_val_of_single rfl i q
/-- … and its column is `i`'s column. -/
theorem rhs_d2_1 (i : S16x8192.Idx) (q : dot_S16x32_S32x8192_S16x8192_1_0_0_1_n_n.contr.Idx) :
    (dot_S16x32_S32x8192_S16x8192_1_0_0_1_n_n.rhsIdx i q 1).val = (i 1).val := by
  unfold DotDims.rhsIdx
  rw [dif_neg (show ¬(1 : Fin S32x8192.rank) ∈ dot_S16x32_S32x8192_S16x8192_1_0_0_1_n_n.rhsBatch by decide),
    dif_pos (show (1 : Fin S32x8192.rank) ∈ dot_S16x32_S32x8192_S16x8192_1_0_0_1_n_n.rhsNonContracting by decide)]
  rfl

/-- The second product into the zero accumulator: entry `(r, q)` is row `r` of the left matrix against COLUMN `q` of the right one. -/
theorem matmul2_apply (lhs : FVec Ideal S16x32 .f32) (rhs : FVec Ideal S32x8192 .f32) (r : Fin 16) (q : Fin 8192) :
    matmul dot_S16x32_S32x8192_S16x8192_1_0_0_1_n_n none lhs rhs (constant (F := Ideal) S16x8192 .f32 0x00000000#32) (ix2 r q)
      = lin lhs (fun i => rhs (ix2 i q)) r := by
  simp only [matmul]
  rw [Ideal.matmul_constant_zero_apply,
    ← Equiv.sum_comp (contrEquiv1 dot_S16x32_S32x8192_S16x8192_1_0_0_1_n_n 32 rfl rfl).symm]
  unfold lin
  refine Finset.sum_congr rfl fun k _ => ?_
  have hk := contrEquiv1_symm_val dot_S16x32_S32x8192_S16x8192_1_0_0_1_n_n 32 rfl rfl k
  have el : dot_S16x32_S32x8192_S16x8192_1_0_0_1_n_n.lhsIdx (ix2 r q)
      ((contrEquiv1 dot_S16x32_S32x8192_S16x8192_1_0_0_1_n_n 32 rfl rfl).symm k) = ix2 r k := funext fun a => Fin.ext (by
    match a with
    | ⟨0, _⟩ => exact lhs_d2_0 _ _
    | ⟨1, _⟩ => exact (lhs_d2_1 _ _).trans hk)
  have er : dot_S16x32_S32x8192_S16x8192_1_0_0_1_n_n.rhsIdx (ix2 r q)
      ((contrEquiv1 dot_S16x32_S32x8192_S16x8192_1_0_0_1_n_n 32 rfl rfl).symm k) = ix2 k q := funext fun a => Fin.ext (by
    match a with
    | ⟨0, _⟩ => exact (rhs_d2_0 _ _).trans hk
    | ⟨1, _⟩ => exact rhs_d2_1 _ _)
  rw [el, er]

/-- The third product's left operand index at output `i` and contraction position `q`: its row is `i`'s row … -/
theorem lhs_d3_0 (i : S3x8192.Idx) (q : dot_S3x16_S16x8192_S3x8192_1_0_0_1_n_n.contr.Idx) :
    (dot_S3x16_S16x8192_S3x8192_1_0_0_1_n_n.lhsIdx i q 0).val = (i 0).val := by
  unfold DotDims.lhsIdx
  rw [dif_neg (show ¬(0 : Fin S3x16.rank) ∈ dot_S3x16_S16x8192_S3x8192_1_0_0_1_n_n.lhsBatch by decide),
    dif_pos (show (0 : Fin S3x16.rank) ∈ dot_S3x16_S16x8192_S3x8192_1_0_0_1_n_n.lhsNonContracting by decide)]
  rfl
/-- … and its column is the contraction coordinate. -/
theorem lhs_d3_1 (i : S3x8192.Idx) (q : dot_S3x16_S16x8192_S3x8192_1_0_0_1_n_n.contr.Idx) :
    (dot_S3x16_S16x8192_S3x8192_1_0_0_1_n_n.lhsIdx i q 1).val = (q ⟨0, by decide⟩).val :=
  dot_S3x16_S16x8192_S3x8192_1_0_0_1_n_n.lhsIdx_val_of_single rfl i q
/-- The third product's right operand index: its row is the contraction coordinate … -/
theorem rhs_d3_0 (i : S3x8192.Idx) (q : dot_S3x16_S16x8192_S3x8192_1_0_0_1_n_n.contr.Idx) :
    (dot_S3x16_S16x8192_S3x8192_1_0_0_1_n_n.rhsIdx i q 0).val = (q ⟨0, by decide⟩).val :=
  dot_S3x16_S16x8192_S3x8192_1_0_0_1_n_n.rhsIdx_val_of_single rfl i q
/-- … and its column is `i`'s column. -/
theorem rhs_d3_1 (i : S3x8192.Idx) (q : dot_S3x16_S16x8192_S3x8192_1_0_0_1_n_n.contr.Idx) :
    (dot_S3x16_S16x8192_S3x8192_1_0_0_1_n_n.rhsIdx i q 1).val = (i 1).val := by
  unfold DotDims.rhsIdx
  rw [dif_neg (show ¬(1 : Fin S16x8192.rank) ∈ dot_S3x16_S16x8192_S3x8192_1_0_0_1_n_n.rhsBatch by decide),
    dif_pos (show (1 : Fin S16x8192.rank) ∈ dot_S3x16_S16x8192_S3x8192_1_0_0_1_n_n.rhsNonContracting by decide)]
  rfl

/-- The third product into the zero accumulator: entry `(r, q)` is row `r` of the left matrix against COLUMN `q` of the right one. -/
theorem matmul3_apply (lhs : FVec Ideal S3x16 .f32) (rhs : FVec Ideal S16x8192 .f32) (r : Fin 3) (q : Fin 8192) :
    matmul dot_S3x16_S16x8192_S3x8192_1_0_0_1_n_n none lhs rhs (constant (F := Ideal) S3x8192 .f32 0x00000000#32) (ix2 r q)
      = lin lhs (fun i => rhs (ix2 i q)) r := by
  simp only [matmul]
  rw [Ideal.matmul_constant_zero_apply,
    ← Equiv.sum_comp (contrEquiv1 dot_S3x16_S16x8192_S3x8192_1_0_0_1_n_n 16 rfl rfl).symm]
  unfold lin
  refine Finset.sum_congr rfl fun k _ => ?_
  have hk := contrEquiv1_symm_val dot_S3x16_S16x8192_S3x8192_1_0_0_1_n_n 16 rfl rfl k
  have el : dot_S3x16_S16x8192_S3x8192_1_0_0_1_n_n.lhsIdx (ix2 r q)
      ((contrEquiv1 dot_S3x16_S16x8192_S3x8192_1_0_0_1_n_n 16 rfl rfl).symm k) = ix2 r k := funext fun a => Fin.ext (by
    match a with
    | ⟨0, _⟩ => exact lhs_d3_0 _ _
    | ⟨1, _⟩ => exact (lhs_d3_1 _ _).trans hk)
  have er : dot_S3x16_S16x8192_S3x8192_1_0_0_1_n_n.rhsIdx (ix2 r q)
      ((contrEquiv1 dot_S3x16_S16x8192_S3x8192_1_0_0_1_n_n 16 rfl rfl).symm k) = ix2 k q := funext fun a => Fin.ext (by
    match a with
    | ⟨0, _⟩ => exact (rhs_d3_0 _ _).trans hk
    | ⟨1, _⟩ => exact rhs_d3_1 _ _)
  rw [el, er]

/-- The reduced index `q` with the class coordinate `k` put back on the reduced (major) axis is the entry `(k, q)`. -/
theorem lift_col (q : Fin 8192) (k : Fin 3) : reduces_S3x8192_S8192.lift (ix1 q) k = ix2 k q :=
  funext fun a => Fin.ext (by
    match a with
    | ⟨0, _⟩ => rfl
    | ⟨1, _⟩ => rfl)

/-- The maximum over the three classes, folded from the pattern of `-∞`, read at lane `q`: the largest entry of column `q`. -/
theorem colmax_apply (src : FVec Ideal S3x8192 .f32) (hφ : FKind.Formats .f32)
    (hacc : @Eq (BitVec FTy.f32.bits) 0xFF800000#32 0xFF800000#32) (q : Fin 8192) :
    multiReduction (F := Ideal) .maximumf [0] S8192 src 0xFF800000#32 reduces_S3x8192_S8192 hφ hacc (ix1 q)
      = colMax (fun c => src (ix2 c q)) := by
  refine (Ideal.multiReduction_maximumf_single src 0xFF800000#32 reduces_S3x8192_S8192 hφ hacc (ix1 q)).trans ?_
  unfold colMax
  exact congrArg (fun f : Fin 3 → EReal => (Finset.univ : Finset (Fin 3)).fold max (Ideal.ofBits .f32 0xFF800000#32) f)
    (funext fun k => congrArg src (lift_col q k))

/-- The sum over the three classes from the zero pattern, read at lane `q`: the sum of column `q`. -/
theorem colsum_apply (src : FVec Ideal S3x8192 .f32) (hφ : FKind.Formats .f32)
    (hacc : @Eq (BitVec FTy.f32.bits) 0x00000000#32 0x00000000#32) (q : Fin 8192) :
    multiReduction (F := Ideal) .add [0] S8192 src 0x00000000#32 reduces_S3x8192_S8192 hφ hacc (ix1 q)
      = ∑ k : Fin 3, src (ix2 k q) := by
  refine (Ideal.multiReduction_add_single src 0x00000000#32 reduces_S3x8192_S8192 hφ hacc (ix1 q)).trans ?_
  exact Finset.sum_congr rfl fun k _ => congrArg src (lift_col q k)

/-- An exponential at an index is the exponential of the element … -/
theorem exp_apply {s : Shape} {φ : FTy} (a : FVec Ideal s φ) (i : s.Idx) : exp a i = Ideal.exp (a i) := rfl
/-- … and a logarithm the logarithm of the element. -/
theorem log_apply {s : Shape} {φ : FTy} (a : FVec Ideal s φ) (i : s.Idx) : log a i = Ideal.log (a i) := rfl
/-- The scalar the relu compares against, the f32 zero pattern, is the extended real `0`. -/
theorem scalar_zero : Scalar.ofBits (F := Ideal) .f32 0x00000000#32 = (0 : EReal) := Ideal.ofBits_zero_f32

/-- Entry `(c, q)` of the block the body stores is class `c` of the reference's log-softmax of the logits of ROW `q` of the
    loaded `x` block (the first matmul contracts the minor axis of both operands). -/
theorem pay_apply (v0 : Vec Ideal S8192x8 .f32) (v1 : Vec Ideal S32x8 .f32) (v3 : Vec Ideal S32x1 .f32)
    (v8 : Vec Ideal S16x32 .f32) (v10 : Vec Ideal S16x1 .f32) (v15 : Vec Ideal S3x16 .f32) (v17 : Vec Ideal S3x1 .f32)
    (c : Fin 3) (q : Fin 8192) :
    k0_pay1 (F := Ideal) v0 v1 v3 v8 v10 v15 v17 (ix2 c q)
      = lsmR (logitsR v1 (fun k => v3 (ix2 k 0)) v8 (fun j => v10 (ix2 j 0)) v15 (fun c' => v17 (ix2 c' 0))
            (fun i => v0 (ix2 q i))) c := by
  unfold k0_pay1
  simp only [subf_apply, addf_apply, maximumf_apply, exp_apply, log_apply, broadcast_apply, scalar_zero,
    broadcastTo_1b_ab_apply, shapeCast_a_1a_apply, broadcastTo_a1_ab_apply, colmax_apply, colsum_apply,
    matmul1_apply, matmul2_apply, matmul3_apply]
  rw [colsum_apply]
  simp only [subf_apply, addf_apply, maximumf_apply, exp_apply, log_apply, broadcast_apply, scalar_zero,
    broadcastTo_1b_ab_apply, shapeCast_a_1a_apply, broadcastTo_a1_ab_apply,
    matmul1_apply, matmul2_apply, matmul3_apply]
  rw [colmax_apply]
  simp only [subf_apply, addf_apply, maximumf_apply, exp_apply, log_apply, broadcast_apply, scalar_zero,
    broadcastTo_1b_ab_apply, shapeCast_a_1a_apply, broadcastTo_a1_ab_apply,
    matmul1_apply, matmul2_apply, matmul3_apply]
  unfold lsmR logitsR
  rfl

end Cert.ReferenceIdeal.Pay

end
-- ==== Proof.RefVal.lean ====
/-
  The reference's program, run: what its result array holds, as one function of the argument arrays.
-/
import proofs.«149577_g2000401451430501_pallasbulk_762_21_alg».proof.Proof.RefPay
import proofs.«149577_g2000401451430501_pallasbulk_762_21_alg».proof.Proof.Gen.ReferenceIdeal.Frame
import Idealize.ShloMosaic.Lib.Pipeline.Value
import Idealize.ShloMosaic.Lib.StableHlo.Run
import Idealize.ShloMosaic.Lib.ValueLayout

noncomputable section

namespace Cert.ReferenceIdeal.Val

open Idealize.ShloMosaic Idealize.ShloMosaic.TcCoe Idealize.SL.Sem Idealize.ShloMosaic.ValueIdx
open Cert.ReferenceIdeal Cert.ReferenceIdeal.Gen Cert.Mlp

/-- The zero offsets of a whole-block access, as the constant function. -/
theorem zeroOffsets : (![0, 0] : Fin 2 → Nat) = fun _ => 0 := funext fun a => by fin_cases a <;> rfl

/-- The region's whole output as one function of its seven argument arrays: column `n` of the [3, 1048576] array is the
    reference's log-softmax of the logits of row `n` of `x`. -/
def logSoftmaxT (x : Mat 1048576 8) (w1 : Mat 32 8) (b1 : Mat 32 1) (w2 : Mat 16 32) (b2 : Mat 16 1) (w3 : Mat 3 16)
    (b3 : Mat 3 1) : Mat 3 1048576 :=
  fun j => lsmR (logitsR w1 (fun k => b1 (ix2 k 0)) w2 (fun q => b2 (ix2 q 0)) w3 (fun c => b3 (ix2 c 0))
      (fun i => x (ix2 (j 1) i))) (j 0)

/-- The block indices over the grid: at point `t` the `x` window is at block row `t`, the output window at block column
    `t`, and the six weight and bias windows stay at block (0, 0). -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Row `q` of the `x` window's block at point `t` is row `t * 8192 + q` of `x`. -/
theorem xBlock_row (m : (ℓ : Loc nD τ sig) → Buf (Elt Ideal) ℓ) (c : Dev nD) (t : Fin cfg0.N) (q : Fin 8192) (i : Fin 8)
    (n : Fin 1048576) (hn : n.val = t.val * 8192 + q.val) :
    (iblk m c 0 t : Vec Ideal S8192x8 .f32) (ix2 q i) = (V m c main_arg0 : Mat 1048576 8) (ix2 n i) := by
  obtain ⟨e0, e1, -⟩ := blockIndex_facts t
  show V m c main_arg0 (((cfg0.win 0).blk t).view.emb (ix2 q i)) = V m c main_arg0 (ix2 n i)
  refine congrArg _ (funext fun a => Fin.ext ?_)
  match a with
  | ⟨0, _⟩ => show win0_0.index t (0 : Fin 2) * 8192 + 1 * q.val = n.val; omega
  | ⟨1, _⟩ => show win0_0.index t (1 : Fin 2) * 8 + 1 * i.val = i.val; omega

/-- The block of the first layer's weights is the whole array at every point: its block index is (0, 0) and its block has the array's size. -/
theorem w1Block_eq (m : (ℓ : Loc nD τ sig) → Buf (Elt Ideal) ℓ) (c : Dev nD) (t : Fin cfg0.N) :
    (iblk m c 1 t : Vec Ideal S32x8 .f32) = V m c main_arg1 := by
  obtain ⟨-, -, e0, e1, -⟩ := blockIndex_facts t
  funext y
  show V m c main_arg1 (((cfg0.win 1).blk t).view.emb y) = V m c main_arg1 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 8 + 1 * (y 1).val = (y 1).val; omega

/-- The block of the first layer's bias is the whole array at every point: its block index is (0, 0) and its block has the array's size. -/
theorem b1Block_eq (m : (ℓ : Loc nD τ sig) → Buf (Elt Ideal) ℓ) (c : Dev nD) (t : Fin cfg0.N) :
    (iblk m c 2 t : Vec Ideal S32x1 .f32) = V m c main_arg2 := by
  obtain ⟨-, -, -, -, e0, e1, -⟩ := blockIndex_facts t
  funext y
  show V m c main_arg2 (((cfg0.win 2).blk t).view.emb y) = V m c main_arg2 y
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 1 + 1 * (y 1).val = (y 1).val; omega

/-- The block of the second layer's weights is the whole array at every point: its block index is (0, 0) and its block has the array's size. -/
theorem w2Block_eq (m : (ℓ : Loc nD τ sig) → Buf (Elt Ideal) ℓ) (c : Dev nD) (t : Fin cfg0.N) :
    (iblk m c 3 t : Vec Ideal S16x32 .f32) = V m c main_arg3 := by
  obtain ⟨-, -, -, -, -, -, e0, e1, -⟩ := blockIndex_facts t
  funext y
  show V m c main_arg3 (((cfg0.win 3).blk t).view.emb y) = V m c main_arg3 y
  refine congrArg _ (funext fun a => Fin.ext ?_)
  match a with
  | ⟨0, _⟩ => show win0_3.index t (0 : Fin 2) * 16 + 1 * (y 0).val = (y 0).val; omega
  | ⟨1, _⟩ => show win0_3.index t (1 : Fin 2) * 32 + 1 * (y 1).val = (y 1).val; omega

/-- The block of the second layer's bias is the whole array at every point: its block index is (0, 0) and its block has the array's size. -/
theorem b2Block_eq (m : (ℓ : Loc nD τ sig) → Buf (Elt Ideal) ℓ) (c : Dev nD) (t : Fin cfg0.N) :
    (iblk m c 4 t : Vec Ideal S16x1 .f32) = V m c main_arg4 := by
  obtain ⟨-, -, -, -, -, -, -, -, e0, e1, -⟩ := blockIndex_facts t
  funext y
  show V m c main_arg4 (((cfg0.win 4).blk t).view.emb y) = V m c main_arg4 y
  refine congrArg _ (funext fun a => Fin.ext ?_)
  match a with
  | ⟨0, _⟩ => show win0_4.index t (0 : Fin 2) * 16 + 1 * (y 0).val = (y 0).val; omega
  | ⟨1, _⟩ => show win0_4.index t (1 : Fin 2) * 1 + 1 * (y 1).val = (y 1).val; omega

/-- The block of the third layer's weights is the whole array at every point: its block index is (0, 0) and its block has the array's size. -/
theorem w3Block_eq (m : (ℓ : Loc nD τ sig) → Buf (Elt Ideal) ℓ) (c : Dev nD) (t : Fin cfg0.N) :
    (iblk m c 5 t : Vec Ideal S3x16 .f32) = V m c main_arg5 := by
  obtain ⟨-, -, -, -, -, -, -, -, -, -, e0, e1, -⟩ := blockIndex_facts t
  funext y
  show V m c main_arg5 (((cfg0.win 5).blk t).view.emb y) = V m c main_arg5 y
  refine congrArg _ (funext fun a => Fin.ext ?_)
  match a with
  | ⟨0, _⟩ => show win0_5.index t (0 : Fin 2) * 3 + 1 * (y 0).val = (y 0).val; omega
  | ⟨1, _⟩ => show win0_5.index t (1 : Fin 2) * 16 + 1 * (y 1).val = (y 1).val; omega

/-- The block of the third layer's bias is the whole array at every point: its block index is (0, 0) and its block has the array's size. -/
theorem b3Block_eq (m : (ℓ : Loc nD τ sig) → Buf (Elt Ideal) ℓ) (c : Dev nD) (t : Fin cfg0.N) :
    (iblk m c 6 t : Vec Ideal S3x1 .f32) = V m c main_arg6 := by
  obtain ⟨-, -, -, -, -, -, -, -, -, -, -, -, e0, e1, -⟩ := blockIndex_facts t
  funext y
  show V m c main_arg6 (((cfg0.win 6).blk t).view.emb y) = V m c main_arg6 y
  refine congrArg _ (funext fun a => Fin.ext ?_)
  match a with
  | ⟨0, _⟩ => show win0_6.index t (0 : Fin 2) * 3 + 1 * (y 0).val = (y 0).val; omega
  | ⟨1, _⟩ => show win0_6.index t (1 : Fin 2) * 1 + 1 * (y 1).val = (y 1).val; omega

/-- One entry of the stored block against one entry of `logSoftmaxT`: when the class coordinates agree and the block's row of `x`
    is the array's row, the body's value at the block entry is `logSoftmaxT`'s at the array entry. -/
theorem stored_entry_eq (x0 : Vec Ideal S8192x8 .f32) (x : Mat 1048576 8) (w1 : Mat 32 8) (b1 : Mat 32 1) (w2 : Mat 16 32)
    (b2 : Mat 16 1) (w3 : Mat 3 16) (b3 : Mat 3 1) (y : S3x8192.Idx) (j : S3x1048576.Idx) (hc : j 0 = y 0)
    (hx : ∀ i : Fin 8, x0 (ix2 (y 1) i) = x (ix2 (j 1) i)) :
    k0_pay1 (F := Ideal) x0 w1 b1 w2 b2 w3 b3 y = logSoftmaxT x w1 b1 w2 b2 w3 b3 j := by
  refine (congrArg (k0_pay1 (F := Ideal) x0 w1 b1 w2 b2 w3 b3) (eq_ix2 y)).trans ?_
  refine (Pay.pay_apply x0 w1 b1 w2 b2 w3 b3 (y 0) (y 1)).trans ?_
  show lsmR (logitsR w1 (fun k => b1 (ix2 k 0)) w2 (fun q => b2 (ix2 q 0)) w3 (fun c => b3 (ix2 c 0))
      (fun i => x0 (ix2 (y 1) i))) (y 0)
    = lsmR (logitsR w1 (fun k => b1 (ix2 k 0)) w2 (fun q => b2 (ix2 q 0)) w3 (fun c => b3 (ix2 c 0))
      (fun i => x (ix2 (j 1) i))) (j 0)
  rw [hc, funext hx]

/-- What point `t` writes back is block `t` of `logSoftmaxT` of the argument arrays as the region finds them: the stored block's
    entry (class `c`, column `q`) sits at array column `t * 8192 + q`, whose sample is row `t * 8192 + q` of `x`, which is
    row `q` of the `x` block at `t`. -/
theorem writtenBack_eq (m : (ℓ : Loc nD τ sig) → Buf (Elt Ideal) ℓ) (c : Dev nD) (t : Fin cfg0.N) :
    (dats (F := Ideal) m 0 c).flushed 7 t
      = ((cfg0.win 7).blk t).view.read (Elt Ideal) (logSoftmaxT (V m c main_arg0) (V m c main_arg1) (V m c main_arg2) (V m c main_arg3) (V m c main_arg4) (V m c main_arg5) (V m c main_arg6)) := by
  show (cfg0.win 7).cut (grid0.coords t) ((dats m 0 c).after 7 t) = _
  rw [after0_7]
  unfold out0_7
  rw [View.canon_unit_zero zeroOffsets]
  simp only [View.ld_unit_zero (S := S8192x8) zeroOffsets, View.ld_unit_zero (S := S32x8) zeroOffsets, View.ld_unit_zero (S := S32x1) zeroOffsets,
    View.ld_unit_zero (S := S16x32) zeroOffsets, View.ld_unit_zero (S := S16x1) zeroOffsets, View.ld_unit_zero (S := S3x16) zeroOffsets,
    View.ld_unit_zero (S := S3x1) zeroOffsets]
  rw [w1Block_eq, b1Block_eq, w2Block_eq, b2Block_eq, w3Block_eq, b3Block_eq]
  obtain ⟨-, -, -, -, -, -, -, -, -, -, -, -, -, -, e0, e1⟩ := blockIndex_facts t
  funext y
  refine stored_entry_eq (iblk m c 0 t) (V m c main_arg0) (V m c main_arg1) (V m c main_arg2) (V m c main_arg3) (V m c main_arg4)
    (V m c main_arg5) (V m c main_arg6) y (((cfg0.win 7).blk t).view.emb y) (Fin.ext ?_) fun i => ?_
  · show win0_7.index t (0 : Fin 2) * 3 + 1 * (y 0).val = (y 0).val
    omega
  · refine xBlock_row m c t (y 1) i _ ?_
    show win0_7.index t (1 : Fin 2) * 8192 + 1 * (y 1).val = t.val * 8192 + (y 1).val
    omega

/-- An index of the [3, 1048576] array is in point `t`'s block iff each coordinate is in the block's range on its axis. -/
theorem mem_outBlock (t : Fin cfg0.N) (i : S3x1048576.Idx) :
    i ∈ ((cfg0.win 7).blk t).view.set ↔ ∀ a : Fin 2, win0_7.index t a * S3x8192.size a ≤ (i a).val
      ∧ (i a).val < win0_7.index t a * S3x8192.size a + S3x8192.size a := by
  show i ∈ ((View.whole main_v0).slice (win0_7.rect t)).set ↔ _
  rw [View.set_slice_whole, Rect.mem_set_unit]
  exact Iff.rfl

/-- Every index of the output array is in some point's block: column `n` is covered by point `n / 8192`. -/
theorem outBlocks_cover (i : S3x1048576.Idx) :
    ∃ t : Fin cfg0.N, (cfg0.win 7).flush t = true ∧ i ∈ ((cfg0.win 7).blk t).view.set := by
  have hi0 : (i 0).val < 3 := (i 0).isLt
  have hi1 : (i 1).val < 1048576 := (i 1).isLt
  obtain ⟨t, ht⟩ : ∃ t : Fin cfg0.N, t.val = (i 1).val / 8192 :=
    ⟨⟨(i 1).val / 8192, by rw [show cfg0.N = 128 from N_0]; omega⟩, rfl⟩
  obtain ⟨-, -, -, -, -, -, -, -, -, -, -, -, -, -, e0, e1⟩ := blockIndex_facts t
  refine ⟨t, flush0_7 t, ?_⟩
  rw [mem_outBlock]
  intro a
  match a with
  | ⟨0, _⟩ =>
    show win0_7.index t (0 : Fin 2) * 3 ≤ (i 0).val ∧ (i 0).val < win0_7.index t (0 : Fin 2) * 3 + 3
    omega
  | ⟨1, _⟩ =>
    show win0_7.index t (1 : Fin 2) * 8192 ≤ (i 1).val ∧ (i 1).val < win0_7.index t (1 : Fin 2) * 8192 + 8192
    omega

/-- So the region's output array ends holding `logSoftmaxT` of the argument arrays. -/
theorem regionOut_eq (m : (ℓ : Loc nD τ sig) → Buf (Elt Ideal) ℓ) (c : Dev nD) :
    (dats (F := Ideal) m 0 c).arrAt 7 cfg0.N = (logSoftmaxT (V m c main_arg0) (V m c main_arg1) (V m c main_arg2) (V m c main_arg3) (V m c main_arg4) (V m c main_arg5) (V m c main_arg6)) :=
  (dats m 0 c).arrAt_eq_of_cover 7 (logSoftmaxT (V m c main_arg0) (V m c main_arg1) (V m c main_arg2) (V m c main_arg3) (V m c main_arg4) (V m c main_arg5) (V m c main_arg6)) (fun t _ => writtenBack_eq m c t) outBlocks_cover

/-- The host's transpose of the region's output is `resultR` of the arguments: entry (n, c) of the transposed array is
    entry (c, n) of `logSoftmaxT`, class `c` of the log-softmax of sample `n`. -/
theorem transposed_eq (m : (ℓ : Loc nD τ sig) → Buf (Elt Ideal) ℓ) (c : Dev nD) :
    Pipeline.afterTail₀ cfgs (dats (F := Ideal) m) 0 (V0 m) [hostOps1] c main_v1
      = resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = (logSoftmaxT (V m c main_arg0) (V m c main_arg1) (V m c main_arg2) (V m c main_arg3) (V m c main_arg4) (V m c main_arg5) (V m c main_arg6)) :=
    (Pipeline.withArrays_arr spec0 launch0.win.arr_inj c _ _ 7).trans (regionOut_eq m c)
  rw [e, V_main_arg0, V_main_arg1, V_main_arg2, V_main_arg3, V_main_arg4, V_main_arg5, V_main_arg6]
  funext j
  obtain ⟨n, k, rfl⟩ : ∃ (n : Fin 1048576) (k : Fin 3), j = ix2 n k := ⟨j 0, j 1, eq_ix2 j⟩
  rw [transpose_ix2_apply]
  rfl

/-- Every weakly fair execution of the reference's program ends with its result at `resultR` of the arguments, and the
    arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v1) = resultR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) := by
  exact (θ_run (Cert.ReferenceIdeal.defs (F := Ideal)) _ _).mono (fun r h c =>
    ⟨((h c).2 main_v1 (Pipeline.mem_restRefs_of main_v1 (by decide) (by decide))).trans (transposed_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main (F := Ideal) m ρ)

end Cert.ReferenceIdeal.Val

end
-- ==== Proof.lean ====
/-
  A three-layer classifier with a log-softmax, computed two ways over a batch of 1048576 samples of 8 features.

  The reference applies, per sample, `h1 = max (W1 x + b1) 0`, `h2 = max (W2 h1 + b2) 0`, `logits = W3 h2 + b3`, and
  returns `logits - max - log (Σ exp (logits - max))` over the three classes.  The kernel works on the transposed batch
  and folds each bias into the next layer: `u1 = max (W1 x) (-b1)`, `u2 = max (W2 u1) (-(W2 b1 + b2))`,
  `logits = W3 u2 + (W3 (W2 b1 + b2) + b3)`, and sums the exponentials against a row of ones.  Since
  `max (z + b) 0 = max z (-b) + b` and a matrix distributes over a sum of REAL vectors, the two agree wherever every
  input is finite, which is the precondition.

  Each program's result array is read off its run as one function of the argument arrays (`Cert.Mlp.resultK`,
  `Cert.Mlp.resultR`); the precondition makes every input entry real; the algebra identifies the two functions.
-/
import proofs.«149577_g2000401451430501_pallasbulk_762_21_alg».proof.Defs
import proofs.«149577_g2000401451430501_pallasbulk_762_21_alg».proof.Proof.Gen.Kernel
import proofs.«149577_g2000401451430501_pallasbulk_762_21_alg».proof.Proof.Gen.Kernel.Skeleton
import proofs.«149577_g2000401451430501_pallasbulk_762_21_alg».proof.Proof.Gen.Kernel.Launch
import proofs.«149577_g2000401451430501_pallasbulk_762_21_alg».proof.Proof.Gen.Kernel.Points
import proofs.«149577_g2000401451430501_pallasbulk_762_21_alg».proof.Proof.Gen.Kernel.Frame
import proofs.«149577_g2000401451430501_pallasbulk_762_21_alg».proof.Proof.Gen.KernelIdeal
import proofs.«149577_g2000401451430501_pallasbulk_762_21_alg».proof.Proof.Gen.KernelIdeal.Skeleton
import proofs.«149577_g2000401451430501_pallasbulk_762_21_alg».proof.Proof.Gen.KernelIdeal.Launch
import proofs.«149577_g2000401451430501_pallasbulk_762_21_alg».proof.Proof.Gen.KernelIdeal.Points
import proofs.«149577_g2000401451430501_pallasbulk_762_21_alg».proof.Proof.Gen.KernelIdeal.Frame
import proofs.«149577_g2000401451430501_pallasbulk_762_21_alg».proof.Proof.Gen.ReferenceIdeal
import proofs.«149577_g2000401451430501_pallasbulk_762_21_alg».proof.Proof.Gen.ReferenceIdeal.Skeleton
import proofs.«149577_g2000401451430501_pallasbulk_762_21_alg».proof.Proof.Gen.ReferenceIdeal.Launch
import proofs.«149577_g2000401451430501_pallasbulk_762_21_alg».proof.Proof.Gen.ReferenceIdeal.Points
import proofs.«149577_g2000401451430501_pallasbulk_762_21_alg».proof.Proof.Gen.ReferenceIdeal.Frame
import proofs.«149577_g2000401451430501_pallasbulk_762_21_alg».proof.Proof.Gen.Pre_finite_inputs
import proofs.«149577_g2000401451430501_pallasbulk_762_21_alg».proof.Proof.Algebra
import proofs.«149577_g2000401451430501_pallasbulk_762_21_alg».proof.Proof.Finite
import proofs.«149577_g2000401451430501_pallasbulk_762_21_alg».proof.Proof.KernelVal
import proofs.«149577_g2000401451430501_pallasbulk_762_21_alg».proof.Proof.RefVal
import Idealize.ShloMosaic.Adequacy
import Idealize.ShloMosaic.Init

noncomputable section

namespace Cert.Proof

open Idealize.ShloMosaic Idealize.SL.Sem

/-- Run from memories that agree on the seven arguments, the kernel's program ends at `resultK` of them and the
    reference's at `resultR` of them; with every entry real these are one array. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun r h c => ⟨(h c).1.trans ?_, (h c).2⟩)
    (Cert.ReferenceIdeal.Val.run m' ρ')
  obtain ⟨e0, e1, e2, e3, e4, e5, e6⟩ := hagree c
  rw [e0, e1, e2, e3, e4, e5, e6]
  obtain ⟨h0, h1, h2, h3, h4, h5, h6⟩ := Cert.Mlp.allReal_of_finite _ _ _ _ _ _ _ (hpre c)
  exact (Cert.Mlp.result_eq _ _ _ _ _ _ _ h0 h1 h2 h3 h4 h5 h6).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
